-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S128x64 .f32) (main_arg6 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x64 .f32) (main_arg6 : FVec F S64 .f32) (main_arg7 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 105
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S2x800000, .i32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x128, .f32⟩
  | .hbm, ⟨77, _⟩ => ⟨S850000x1, .f32⟩
  | .hbm, ⟨78, _⟩ => ⟨S850000x128, .f32⟩
  | .hbm, ⟨79, _⟩ => ⟨S850000x128, .f32⟩
  | .hbm, ⟨80, _⟩ => ⟨S_, .f32⟩
  | .hbm, ⟨81, _⟩ => ⟨S50000x128, .f32⟩
  | .hbm, ⟨82, _⟩ => ⟨S850000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x64, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000x64, .f32⟩
  | .hbm, ⟨96, _⟩ => ⟨S850000x1, .f32⟩
  | .hbm, ⟨97, _⟩ => ⟨S850000x64, .f32⟩
  | .hbm, ⟨98, _⟩ => ⟨S850000x64, .f32⟩
  | .hbm, ⟨99, _⟩ => ⟨S_, .f32⟩
  | .hbm, ⟨100, _⟩ => ⟨S50000x64, .f32⟩
  | .hbm, ⟨101, _⟩ => ⟨S850000x1, .i32⟩
  | .hbm, ⟨102, _⟩ => ⟨S50000x64, .f32⟩
  | .hbm, ⟨103, _⟩ => ⟨S1x64, .f32⟩
  | .hbm, ⟨104, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128x128, .f32⟩
  | 4 => ⟨S128, .f32⟩
  | 5 => ⟨S128x64, .f32⟩
  | 6 => ⟨S64, .f32⟩
  | 7 => ⟨S2x800000, .i32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x128, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x128, .f32⟩
  | 58 => ⟨S850000x1, .f32⟩
  | 59 => ⟨S850000x128, .f32⟩
  | 60 => ⟨S850000x128, .f32⟩
  | 61 => ⟨S_, .f32⟩
  | 62 => ⟨S50000x128, .f32⟩
  | 63 => ⟨S850000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000x128, .f32⟩
  | 81 => ⟨S850000x1, .f32⟩
  | 82 => ⟨S850000x128, .f32⟩
  | 83 => ⟨S850000x128, .f32⟩
  | 84 => ⟨S_, .f32⟩
  | 85 => ⟨S50000x128, .f32⟩
  | 86 => ⟨S850000x1, .i32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x64, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000x64, .f32⟩
  | 104 => ⟨S850000x1, .f32⟩
  | 105 => ⟨S850000x64, .f32⟩
  | 106 => ⟨S850000x64, .f32⟩
  | 107 => ⟨S_, .f32⟩
  | 108 => ⟨S50000x64, .f32⟩
  | 109 => ⟨S850000x1, .i32⟩
  | 110 => ⟨S50000x64, .f32⟩
  | 111 => ⟨S1x64, .f32⟩
  | 112 => ⟨S50000x64, .f32⟩
  | 113 => ⟨S50000x64, .f32⟩
  | 114 => ⟨S_, .f32⟩
  | 115 => ⟨S50000, .f32⟩
  | 116 => ⟨S_, .f32⟩
  | 117 => ⟨S50000, .f32⟩
  | 118 => ⟨S50000, .f32⟩
  | 119 => ⟨S50000x1, .f32⟩
  | 120 => ⟨S50000x64, .f32⟩
  | 121 => ⟨S50000x64, .f32⟩
  | 122 => ⟨S50000x64, .f32⟩
  | 123 => ⟨S_, .f32⟩
  | 124 => ⟨S50000, .f32⟩
  | 125 => ⟨S50000x1, .f32⟩
  | 126 => ⟨S50000x1, .f32⟩
  | 127 => ⟨S50000x64, .f32⟩
  | _ => ⟨S50000x128, .f32⟩

abbrev hbmTy0_1 (i : Nat) : BufTy := match i % 128 with
  | 0 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call3_cst : Ref sig .tc := ⟨.hbm, 114, rfl⟩
abbrev main_call3_v0 : Ref sig .tc := ⟨.hbm, 115, rfl⟩
abbrev main_call3_cst_0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_cst_1 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_v83 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.RefOps.lean ====
/-
  The dense stages of one graph-convolution layer, named once as functions of their operands, in the reference's
  own operations and records: a layer's product `X · W` (the host's `dot_general` contracting X's columns with W's
  rows), the bias row added to every node's row followed by the positive part (`max (·) 0`), and for the last layer
  the bias followed by the row-wise log-softmax — `z − M − log Σⱼ exp (zⱼ − M)` with `M` the row's maximum, taken from
  `−∞` so that an empty maximum would be `−∞`. The kernel's tiled regions are shown to leave exactly these functions of
  the arrays they find, and the reference's stages are these functions of its earlier stages by definition; what lies
  between the dense stages (the gathers along edges, the scaling and the scatter-add) is the same host text in both
  programs and is never opened.
-/
import proofs.«162593_j21165598834728_1_alg».proof.ReferenceIdeal
import proofs.«162593_j21165598834728_1_alg».proof.Proof.Gen.ReferenceIdeal

noncomputable section

namespace Cert.RefOps

open Cert.ReferenceIdeal Cert.ReferenceIdeal.Gen Idealize.ShloMosaic

variable {F : FTy → Type} [FloatOps F]

/-- A layer's product with a 128-column weight: node `r`, feature `q` ↦ Σₖ X(r,k) · W(k,q). -/
def mm128 (X : (⟨S50000x128, .f32⟩ : BufTy).Contents (Elt F)) (W : (⟨S128x128, .f32⟩ : BufTy).Contents (Elt F)) :
    (⟨S50000x128, .f32⟩ : BufTy).Contents (Elt F) :=
  Host.dotGeneral dot_S50000x128_S128x128_S50000x128_1_0_0_1_n_n none X W

/-- The last layer's product, with the 64-column weight. -/
def mm64 (X : (⟨S50000x128, .f32⟩ : BufTy).Contents (Elt F)) (W : (⟨S128x64, .f32⟩ : BufTy).Contents (Elt F)) :
    (⟨S50000x64, .f32⟩ : BufTy).Contents (Elt F) :=
  Host.dotGeneral dot_S50000x128_S128x64_S50000x64_1_0_0_1_n_n none X W

/-- The bias row `B` (one row of 128) added to every node's row, then the positive part. -/
def biasRelu128 (X : (⟨S50000x128, .f32⟩ : BufTy).Contents (Elt F)) (B : (⟨S1x128, .f32⟩ : BufTy).Contents (Elt F)) :
    (⟨S50000x128, .f32⟩ : BufTy).Contents (Elt F) :=
  maximumf (addf X (broadcastInDim S50000x128 ![0, 1] bcast_S1x128_S50000x128_0_1 B))
    (broadcastInDim S50000x128 ![] bcast_S_S50000x128 (constant S_ .f32 0x00000000#32))

/-- Each row's maximum over its 64 entries, started from `−∞` (and joined once more with `−∞`, as jax's
    `log_softmax` spells `max(initial = −∞)`). -/
def rowMax64 (Z : (⟨S50000x64, .f32⟩ : BufTy).Contents (Elt F)) : (⟨S50000, .f32⟩ : BufTy).Contents (Elt F) :=
  maximumf (broadcastInDim S50000 ![] bcast_S_S50000 (constant S_ .f32 0xFF800000#32))
    (Host.reduce FloatOps.maximumf Z (constant S_ .f32 0xFF800000#32) reducesTo_S50000x64_S50000_d1 h_S_)

/-- Every entry less its row's maximum. -/
def shifted64 (Z : (⟨S50000x64, .f32⟩ : BufTy).Contents (Elt F)) : (⟨S50000x64, .f32⟩ : BufTy).Contents (Elt F) :=
  subf Z (broadcastInDim S50000x64 ![0, 1] bcast_S50000x1_S50000x64_0_1
    (broadcastInDim S50000x1 ![0] bcast_S50000_S50000x1_0 (rowMax64 Z)))

/-- The row-wise log-softmax: the shifted entry less the logarithm of the row's sum of exponentials of shifted entries. -/
def logSoftmax64 (Z : (⟨S50000x64, .f32⟩ : BufTy).Contents (Elt F)) : (⟨S50000x64, .f32⟩ : BufTy).Contents (Elt F) :=
  subf (shifted64 Z) (broadcastInDim S50000x64 ![0, 1] bcast_S50000x1_S50000x64_0_1
    (Host.log (broadcastInDim S50000x1 ![0] bcast_S50000_S50000x1_0
      (Host.reduceAdd (Host.exp (shifted64 Z)) (constant S_ .f32 0x00000000#32) reducesTo_S50000x64_S50000_d1 h_S_))))

/-- The last layer's tail: the bias row `B` (one row of 64) added to every node's row, then the log-softmax. -/
def biasLogSoftmax64 (X : (⟨S50000x64, .f32⟩ : BufTy).Contents (Elt F)) (B : (⟨S1x64, .f32⟩ : BufTy).Contents (Elt F)) :
    (⟨S50000x64, .f32⟩ : BufTy).Contents (Elt F) :=
  logSoftmax64 (addf X (broadcastInDim S50000x64 ![0, 1] bcast_S1x64_S50000x64_0_1 B))

end Cert.RefOps

end
-- ==== Proof.RefGlue.lean ====
/-
  The graph side of a graph-convolution layer, named once as functions of their operands in the reference's own
  operations and records. From the edge list `E` (2 × 800000 node indices) the edges' sources and targets, each followed
  by the 50000 self-loops `0 … 49999`; a node's degree, the number of edges that end at it (a scatter-add of ones at the
  targets); the normalisation `1 / √deg` where the degree is positive and `0` elsewhere; an edge's weight, the product of
  that at its source and at its target (indices below zero first moved up by the extent, as jnp's `x[idx]` wraps them);
  and the aggregation of a feature array `H`: row `src(e)` of `H`, scaled by the edge's weight, added into row `dst(e)`
  of a zero array, over all edges. Last, a bias vector laid out as one row. Both programs apply exactly these operations
  between their dense stages; here they are only NAMED, never opened.
-/
import proofs.«162593_j21165598834728_1_alg».proof.ReferenceIdeal
import proofs.«162593_j21165598834728_1_alg».proof.Proof.Gen.ReferenceIdeal

noncomputable section

namespace Cert.RefOps

open Cert.ReferenceIdeal Cert.ReferenceIdeal.Gen Idealize.ShloMosaic

variable {F : FTy → Type} [FloatOps F]

/-- The edges' sources (row 0 of the edge list), then the self-loops. -/
def srcE (E : (⟨S2x800000, .i32⟩ : BufTy).Contents (Elt F)) : (⟨S850000, .i32⟩ : BufTy).Contents (Elt F) :=
  concatenate S850000 0 [⟨S800000, shapeCast S800000 (extractStridedSlice S1x800000 ![0, 0] E slices_S2x800000_S1x800000_0_0) shapeCasts_S1x800000_S800000⟩,
    ⟨S50000, iotaInDim S50000 32 0⟩] concatenates_S800000_S50000_S850000_d0

/-- The edges' targets (row 1 of the edge list), then the self-loops. -/
def dstE (E : (⟨S2x800000, .i32⟩ : BufTy).Contents (Elt F)) : (⟨S850000, .i32⟩ : BufTy).Contents (Elt F) :=
  concatenate S850000 0 [⟨S800000, shapeCast S800000 (extractStridedSlice S1x800000 ![1, 0] E slices_S2x800000_S1x800000_1_0) shapeCasts_S1x800000_S800000⟩,
    ⟨S50000, iotaInDim S50000 32 0⟩] concatenates_S800000_S50000_S850000_d0

/-- A node's degree: ones scatter-added at the edges' targets. -/
def degE (E : (⟨S2x800000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 (dstE E))
    (broadcastInDim S850000 ![] bcast_S_S850000 (constant S_ .f32 0x3F800000#32))

/-- `1 / √deg` where the degree is positive, `0` elsewhere. -/
def disE (E : (⟨S2x800000, .i32⟩ : BufTy).Contents (Elt F)) : (⟨S50000, .f32⟩ : BufTy).Contents (Elt F) :=
  select (cmpf .ogt (degE E) (broadcastInDim S50000 ![] bcast_S_S50000 (constant S_ .f32 0x00000000#32)))
    (Host.rsqrt (degE E))
    (broadcastInDim S50000 ![] bcast_S_S50000 (id (constant S_ .f32 0x00000000#32)))

/-- An index below zero moved up once by the extent 50000. -/
def wrapIdx (s : (⟨S850000, .i32⟩ : BufTy).Contents (Elt F)) : (⟨S850000, .i32⟩ : BufTy).Contents (Elt F) :=
  select (cmpi .slt s (broadcastInDim S850000 ![] bcast_S_S850000 (constantI S_ 32 0#32)))
    (addi s (broadcastInDim S850000 ![] bcast_S_S850000 (constantI S_ 32 50000#32))) s

/-- An edge's weight: the normalisation at its source times that at its target. -/
def normE (E : (⟨S2x800000, .i32⟩ : BufTy).Contents (Elt F)) : (⟨S850000, .f32⟩ : BufTy).Contents (Elt F) :=
  mulf (Host.gather gather_S50000_S850000x1_S850000_n_0_n_n_0_1_1 (disE E)
          (broadcastInDim S850000x1 ![0] bcast_S850000_S850000x1_0 (wrapIdx (srcE E))))
       (Host.gather gather_S50000_S850000x1_S850000_n_0_n_n_0_1_1 (disE E)
          (broadcastInDim S850000x1 ![0] bcast_S850000_S850000x1_0 (wrapIdx (dstE E))))

/-- The aggregation of 128-column features: row `src(e)` of `H` times the edge's weight, added into row `dst(e)`. -/
def agg128 (H : (⟨S50000x128, .f32⟩ : BufTy).Contents (Elt F)) (src : (⟨S850000, .i32⟩ : BufTy).Contents (Elt F)) (nrm : (⟨S850000, .f32⟩ : BufTy).Contents (Elt F)) (dst : (⟨S850000, .i32⟩ : BufTy).Contents (Elt F)) :
    (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 dst)
    (mulf (Host.gather gather_S50000x128_S850000x1_S850000x128_1_0_n_n_0_1_1128 H
            (broadcastInDim S850000x1 ![0] bcast_S850000_S850000x1_0 (wrapIdx src)))
          (broadcastInDim S850000x128 ![0, 1] bcast_S850000x1_S850000x128_0_1
            (broadcastInDim S850000x1 ![0] bcast_S850000_S850000x1_0 nrm)))

/-- The same for the last layer's 64-column features. -/
def agg64 (H : (⟨S50000x64, .f32⟩ : BufTy).Contents (Elt F)) (src : (⟨S850000, .i32⟩ : BufTy).Contents (Elt F)) (nrm : (⟨S850000, .f32⟩ : BufTy).Contents (Elt F)) (dst : (⟨S850000, .i32⟩ : BufTy).Contents (Elt F)) :
    (⟨S50000x64, .f32⟩ : BufTy).Contents (Elt F) :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 dst)
    (mulf (Host.gather gather_S50000x64_S850000x1_S850000x64_1_0_n_n_0_1_164 H
            (broadcastInDim S850000x1 ![0] bcast_S850000_S850000x1_0 (wrapIdx src)))
          (broadcastInDim S850000x64 ![0, 1] bcast_S850000x1_S850000x64_0_1
            (broadcastInDim S850000x1 ![0] bcast_S850000_S850000x1_0 nrm)))

/-- A 128-entry bias vector laid out as one row. -/
def biasRow128 (b : (⟨S128, .f32⟩ : BufTy).Contents (Elt F)) : (⟨S1x128, .f32⟩ : BufTy).Contents (Elt F) :=
  broadcastInDim S1x128 ![1] bcast_S128_S1x128_1 b

/-- The last layer's 64-entry bias vector laid out as one row. -/
def biasRow64 (b : (⟨S64, .f32⟩ : BufTy).Contents (Elt F)) : (⟨S1x64, .f32⟩ : BufTy).Contents (Elt F) :=
  broadcastInDim S1x64 ![1] bcast_S64_S1x64_1 b

end Cert.RefOps

end
-- ==== Proof.RefNet.lean ====
/-
  The three-layer graph convolution as ONE function of its eight arguments: features `x`, the three weights and biases,
  and the edge list `E`. A layer multiplies the node features by its weight, aggregates the product's rows along the
  edges (with self-loops, each edge weighted by `1/√deg` at both its ends) and adds its bias; the first two layers take
  the positive part, the last the row-wise log-softmax:
      h₁ = relu (A · (x W₁) + b₁),   h₂ = relu (A · (h₁ W₂) + b₂),   out = log_softmax (A · (h₂ W₃) + b₃),
  with `A` the normalised adjacency the edge list determines. Both programs are shown to end with their result at this
  function of their arguments.
-/
import proofs.«162593_j21165598834728_1_alg».proof.Proof.RefOps
import proofs.«162593_j21165598834728_1_alg».proof.Proof.RefGlue

noncomputable section

namespace Cert.RefOps

open Cert.ReferenceIdeal Cert.ReferenceIdeal.Gen Idealize.ShloMosaic

variable {F : FTy → Type} [FloatOps F]

/-- The first layer: `relu (A · (x W₁) + b₁)`. -/
def layer1 (x : (⟨S50000x128, .f32⟩ : BufTy).Contents (Elt F)) (W1 : (⟨S128x128, .f32⟩ : BufTy).Contents (Elt F)) (b1 : (⟨S128, .f32⟩ : BufTy).Contents (Elt F))
    (E : (⟨S2x800000, .i32⟩ : BufTy).Contents (Elt F)) : (⟨S50000x128, .f32⟩ : BufTy).Contents (Elt F) :=
  biasRelu128 (agg128 (mm128 x W1) (srcE E) (normE E) (dstE E)) (biasRow128 b1)

/-- The second layer: `relu (A · (h₁ W₂) + b₂)`. -/
def layer2 (x : (⟨S50000x128, .f32⟩ : BufTy).Contents (Elt F)) (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (E : (⟨S2x800000, .i32⟩ : BufTy).Contents (Elt F)) : (⟨S50000x128, .f32⟩ : BufTy).Contents (Elt F) :=
  biasRelu128 (agg128 (mm128 (layer1 x W1 b1 E) W2) (srcE E) (normE E) (dstE E)) (biasRow128 b2)

/-- The network's result: `log_softmax (A · (h₂ W₃) + b₃)`. -/
def gcnOut (x : (⟨S50000x128, .f32⟩ : BufTy).Contents (Elt F)) (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (W3 : (⟨S128x64, .f32⟩ : BufTy).Contents (Elt F)) (b3 : (⟨S64, .f32⟩ : BufTy).Contents (Elt F))
    (E : (⟨S2x800000, .i32⟩ : BufTy).Contents (Elt F)) : (⟨S50000x64, .f32⟩ : BufTy).Contents (Elt F) :=
  biasLogSoftmax64 (agg64 (mm64 (layer2 x W1 b1 W2 b2 E) W3) (srcE E) (normE E) (dstE E)) (biasRow64 b3)

end Cert.RefOps

end
-- ==== Proof.RefMM.lean ====
/- A layer's product read at an index, at the ideal values: entry (r, q) of `X · W` is Σₖ X(r,k) · W(k,q), the sum over
  the one contracted axis (X's columns, W's rows), for the 128-column weights and for the last layer's 64-column weight.
  The host's `dot_general` is that sum over its contraction index type, which has one axis of extent 128; the sum is
  re-indexed over `Fin 128` and the operand indices are read coordinate by coordinate.
-/
import proofs.«162593_j21165598834728_1_alg».proof.Proof.RefOps
import Idealize.ShloMosaic.Lib.ValueIdx
import Idealize.ShloMosaic.PureOps.Ideal.Laws

noncomputable section

namespace Cert.RefOps

open Cert.ReferenceIdeal Cert.ReferenceIdeal.Gen Idealize.ShloMosaic

/-! ## The operand indices of the two products, coordinate by coordinate -/

theorem l128_0 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem l128_1 (i : S50000x128.Idx) (q : dot_S50000x128_S128x128_S50000x128_1_0_0_1_n_n.contr.Idx) : (dot_S50000x128_S128x128_S50000x128_1_0_0_1_n_n.lhsIdx i q 1).val = (q ⟨0, by decide⟩).val :=
  dot_S50000x128_S128x128_S50000x128_1_0_0_1_n_n.lhsIdx_val_of_single rfl i q
theorem r128_0 (i : S50000x128.Idx) (q : dot_S50000x128_S128x128_S50000x128_1_0_0_1_n_n.contr.Idx) : (dot_S50000x128_S128x128_S50000x128_1_0_0_1_n_n.rhsIdx i q 0).val = (q ⟨0, by decide⟩).val :=
  dot_S50000x128_S128x128_S50000x128_1_0_0_1_n_n.rhsIdx_val_of_single rfl i q
theorem r128_1 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

theorem l64_0 (i : S50000x64.Idx) (q : dot_S50000x128_S128x64_S50000x64_1_0_0_1_n_n.contr.Idx) : (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem l64_1 (i : S50000x64.Idx) (q : dot_S50000x128_S128x64_S50000x64_1_0_0_1_n_n.contr.Idx) : (dot_S50000x128_S128x64_S50000x64_1_0_0_1_n_n.lhsIdx i q 1).val = (q ⟨0, by decide⟩).val :=
  dot_S50000x128_S128x64_S50000x64_1_0_0_1_n_n.lhsIdx_val_of_single rfl i q
theorem r64_0 (i : S50000x64.Idx) (q : dot_S50000x128_S128x64_S50000x64_1_0_0_1_n_n.contr.Idx) : (dot_S50000x128_S128x64_S50000x64_1_0_0_1_n_n.rhsIdx i q 0).val = (q ⟨0, by decide⟩).val :=
  dot_S50000x128_S128x64_S50000x64_1_0_0_1_n_n.rhsIdx_val_of_single rfl i q
theorem r64_1 (i : S50000x64.Idx) (q : dot_S50000x128_S128x64_S50000x64_1_0_0_1_n_n.contr.Idx) : (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-! ## The products at an index -/

/-- Row `r = i 0` of the left operand at column `k`. -/
abbrev rowAt128 (i : S50000x128.Idx) (k : Fin 128) : S50000x128.Idx := fun a => match a with
  | ⟨0, _⟩ => ⟨(i 0).val, (i 0).isLt⟩
  | ⟨1, _⟩ => ⟨k.val, k.isLt⟩
/-- Row `k` of the weight at column `q = i 1`. -/
abbrev colAt128 (i : S50000x128.Idx) (k : Fin 128) : S128x128.Idx := fun a => match a with
  | ⟨0, _⟩ => ⟨k.val, k.isLt⟩
  | ⟨1, _⟩ => ⟨(i 1).val, (i 1).isLt⟩

/-- Entry `i = (r, q)` of `X · W`: Σₖ X(r,k) · W(k,q). -/
theorem mm128_apply (X : (⟨S50000x128, .f32⟩ : BufTy).Contents (Elt Ideal)) (W : (⟨S128x128, .f32⟩ : BufTy).Contents (Elt Ideal))
    (i : S50000x128.Idx) :
    mm128 (F := Ideal) X W i = ∑ k : Fin 128, X (rowAt128 i k) * W (colAt128 i k) := by
  unfold mm128
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = rowAt128 i k := funext fun a => Fin.ext (by
    match a with
    | ⟨0, _⟩ => exact l128_0 _ _
    | ⟨1, _⟩ => exact (l128_1 _ _).trans hk)
  have er : dot_S50000x128_S128x128_S50000x128_1_0_0_1_n_n.rhsIdx i ((ValueIdx.contrEquiv1 dot_S50000x128_S128x128_S50000x128_1_0_0_1_n_n 128 rfl rfl).symm k) = colAt128 i k := funext fun a => Fin.ext (by
    match a with
    | ⟨0, _⟩ => exact (r128_0 _ _).trans hk
    | ⟨1, _⟩ => exact r128_1 _ _)
  rw [el, er]

/-- Row `r = i 0` of the left operand at column `k`. -/
abbrev rowAt64 (i : S50000x64.Idx) (k : Fin 128) : S50000x128.Idx := fun a => match a with
  | ⟨0, _⟩ => ⟨(i 0).val, (i 0).isLt⟩
  | ⟨1, _⟩ => ⟨k.val, k.isLt⟩
/-- Row `k` of the weight at column `q = i 1`. -/
abbrev colAt64 (i : S50000x64.Idx) (k : Fin 128) : S128x64.Idx := fun a => match a with
  | ⟨0, _⟩ => ⟨k.val, k.isLt⟩
  | ⟨1, _⟩ => ⟨(i 1).val, (i 1).isLt⟩

/-- Entry `i = (r, q)` of `X · W`: Σₖ X(r,k) · W(k,q). -/
theorem mm64_apply (X : (⟨S50000x128, .f32⟩ : BufTy).Contents (Elt Ideal)) (W : (⟨S128x64, .f32⟩ : BufTy).Contents (Elt Ideal))
    (i : S50000x64.Idx) :
    mm64 (F := Ideal) X W i = ∑ k : Fin 128, X (rowAt64 i k) * W (colAt64 i k) := by
  unfold mm64
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = rowAt64 i k := funext fun a => Fin.ext (by
    match a with
    | ⟨0, _⟩ => exact l64_0 _ _
    | ⟨1, _⟩ => exact (l64_1 _ _).trans hk)
  have er : dot_S50000x128_S128x64_S50000x64_1_0_0_1_n_n.rhsIdx i ((ValueIdx.contrEquiv1 dot_S50000x128_S128x64_S50000x64_1_0_0_1_n_n 128 rfl rfl).symm k) = colAt64 i k := funext fun a => Fin.ext (by
    match a with
    | ⟨0, _⟩ => exact (r64_0 _ _).trans hk
    | ⟨1, _⟩ => exact r64_1 _ _)
  rw [el, er]

end Cert.RefOps

end
-- ==== Proof.Reg0.lean ====
/-
  REGION 0, the first layer's product. The grid has ten points; point `t` stages rows 5000·t … 5000·t + 4999 of the
  node features (all 128 columns) and the whole 128 × 128 weight, and its body stores into the output tile the MXU
  product of the two after a change of float format, which at the ideal values is the identity: entry (p, q) of the tile
  is Σₖ x(p,k) · w(k,q). Row p of point t's tile is row 5000·t + p of the array, and the weight's tile is the whole
  weight, so what point t writes back is rows 5000·t … of the whole product `X · W`; the ten tiles cover all 50000 rows
  (row r lies in tile r / 5000), so the region leaves the whole product of the arrays it finds.
-/
import proofs.«162593_j21165598834728_1_alg».proof.Proof.Gen.KernelIdeal.Frame
import proofs.«162593_j21165598834728_1_alg».proof.Proof.RefOps
import proofs.«162593_j21165598834728_1_alg».proof.Proof.RefMM
import Idealize.ShloMosaic.Lib.Pipeline.Value
import Idealize.ShloMosaic.Lib.ValueIdx
import Idealize.ShloMosaic.PureOps.Ideal.Laws

set_option maxRecDepth 16384

noncomputable section

namespace Cert.KernelIdeal.Reg0

open Cert.KernelIdeal Cert.KernelIdeal.Gen
open Idealize.ShloMosaic Idealize.ShloMosaic.TcCoe Idealize.SL.Sem
open Idealize.ShloMosaic.Pipeline (Dat Cfg Window)

theorem hz : (![0, 0] : Fin 2 → Nat) = fun _ => 0 := funext fun a => by fin_cases a <;> rfl

/-! ## The tile's product at an index -/

theorem tl0 (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem tl1 (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
theorem tr0 (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
theorem tr1 (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `p = j 0` of the staged rows at column `k`. -/
abbrev tileRow (j : S5000x128.Idx) (k : Fin 128) : S5000x128.Idx := fun a => match a with
  | ⟨0, _⟩ => ⟨(j 0).val, (j 0).isLt⟩
  | ⟨1, _⟩ => ⟨k.val, k.isLt⟩
/-- Row `k` of the staged weight at column `q = j 1`. -/
abbrev tileCol (j : S5000x128.Idx) (k : Fin 128) : S128x128.Idx := fun a => match a with
  | ⟨0, _⟩ => ⟨k.val, k.isLt⟩
  | ⟨1, _⟩ => ⟨(j 1).val, (j 1).isLt⟩

/-- The body's stored value at entry (p, q) of the tile: Σₖ x(p,k) · w(k,q) — the format changes are the identity at
    the ideal values and the accumulator the product starts from is the zero splat. -/
theorem tile_apply (x : Vec Ideal S5000x128 .f32) (w : Vec Ideal S128x128 .f32) (j : S5000x128.Idx) :
    k0_pay1 (F := Ideal) x w j = ∑ k : Fin 128, x (tileRow j k) * w (tileCol j k) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = tileRow j k := funext fun a => Fin.ext (by
    match a with
    | ⟨0, _⟩ => exact tl0 _ _
    | ⟨1, _⟩ => exact (tl1 _ _).trans hk)
  have er : dot_S5000x128_S128x128_S5000x128_1_0_0_1_n_n.rhsIdx j ((ValueIdx.contrEquiv1 dot_S5000x128_S128x128_S5000x128_1_0_0_1_n_n 128 rfl rfl).symm k) = tileCol j k := funext fun a => Fin.ext (by
    match a with
    | ⟨0, _⟩ => exact (tr0 _ _).trans hk
    | ⟨1, _⟩ => exact tr1 _ _)
  rw [el, er]
  rfl

/-! ## What a grid point writes back, and the cover -/

variable (V : (c : Dev nD) → (b : Ref sig .tc) → Buf (Elt Ideal) ((c : Thread nD τ).loc b))

/-- The printed index maps over the grid: the rows' block index is the point, every other block index is 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point `t` writes back rows 5000·t … of the whole product of the arrays the region finds. -/
theorem flushed_eq (c : Dev nD) (t : Fin cfg0.N) :
    (dat0 (F := Ideal) V c).flushed 2 t
      = ((cfg0.win 2).blk t).view.read (Elt Ideal) (Cert.RefOps.mm128 (F := Ideal) (V c main_arg0) (V c main_arg1)) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext y
  show k0_pay1 (F := Ideal) (iblk0 V c 0 t) (iblk0 V c 1 t) y
    = Cert.RefOps.mm128 (F := Ideal) (V c main_arg0) (V c main_arg1) (((cfg0.win 2).blk t).view.emb y)
  refine (tile_apply (iblk0 V c 0 t) (iblk0 V c 1 t) y).trans ?_
  rw [Cert.RefOps.mm128_apply]
  refine Finset.sum_congr rfl fun k _ => ?_
  have hx : iblk0 V c 0 t (tileRow y k) = V c main_arg0 (Cert.RefOps.rowAt128 (((cfg0.win 2).blk t).view.emb y) k) := by
    show V c main_arg0 (((cfg0.win 0).blk t).view.emb (tileRow y k)) = _
    refine congrArg _ (funext fun a => Fin.ext ?_)
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * k.val = k.val; omega
  have hw : iblk0 V c 1 t (tileCol y k) = V c main_arg1 (Cert.RefOps.colAt128 (((cfg0.win 2).blk t).view.emb y) k) := by
    show V c main_arg1 (((cfg0.win 1).blk t).view.emb (tileCol y k)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (y 1).val = win0_2.index t (1 : Fin 2) * 128 + 1 * (y 1).val; omega
  rw [hx, hw]

/-- An index of the array is in point `t`'s tile iff each coordinate is in the tile's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- REGION 0 leaves in its output array the whole product of the arrays it finds in its two operands. -/
theorem final (c : Dev nD) :
    (dat0 (F := Ideal) V c).arrAt 2 cfg0.N = Cert.RefOps.mm128 (F := Ideal) (V c main_arg0) (V c main_arg1) :=
  (dat0 (F := Ideal) V c).arrAt_eq_of_cover 2 _ (fun t _ => flushed_eq V c t) fun i => by
    have hi0 : (i 0).val < 50000 := (i 0).isLt
    have hi1 : (i 1).val < 128 := (i 1).isLt
    have hN : cfg0.N = 10 := N_0
    obtain ⟨t, ht⟩ : ∃ t : Fin cfg0.N, t.val = (i 0).val / 5000 := ⟨⟨(i 0).val / 5000, by omega⟩, rfl⟩
    obtain ⟨e0, e1, e2, e3, e4, e5⟩ := idx_facts t
    refine ⟨t, flush0_2 t, ?_⟩
    rw [mem_blk]
    intro a
    match a with
    | ⟨0, _⟩ => show win0_2.index t (0 : Fin 2) * 5000 ≤ (i 0).val ∧ (i 0).val < win0_2.index t (0 : Fin 2) * 5000 + 5000; omega
    | ⟨1, _⟩ => show win0_2.index t (1 : Fin 2) * 128 ≤ (i 1).val ∧ (i 1).val < win0_2.index t (1 : Fin 2) * 128 + 128; omega

end Cert.KernelIdeal.Reg0

end
-- ==== Proof.RefBR.lean ====
/-
  The reference's bias-and-positive-part stage read at an index, at the ideal values. The bias is one row of 128
  entries; `broadcast_in_dim` along both axes of the node array reads it at row 0 (its first extent is 1) and at the
  entry's own column, so entry (r, q) of the sum is X(r,q) + B(0,q). The zero the maximum is taken against is the
  scalar constant splat over the whole array, which at every entry is the extended real its word encodes. So entry
  (r, q) of the stage is max (X(r,q) + B(0,q)) 0.
-/
import proofs.«162593_j21165598834728_1_alg».proof.Proof.RefOps
import Idealize.ShloMosaic.Lib.Pipeline.Value
import Idealize.ShloMosaic.Lib.ValueIdx

noncomputable section

namespace Cert.RefOps

open Cert.ReferenceIdeal Cert.ReferenceIdeal.Gen Idealize.ShloMosaic

/-- The bias row's entry that lands on entry `i = (r, q)` of the node array: row 0, column `q`. -/
abbrev biasAt128 (i : S50000x128.Idx) : S1x128.Idx := fun a => match a with
  | ⟨0, _⟩ => ⟨0, Nat.one_pos⟩
  | ⟨1, _⟩ => ⟨(i 1).val, (i 1).isLt⟩

/-- The bias row spread over the node array, at entry (r, q): B(0, q). The row axis of the bias has extent 1, so it is
    read at 0; the column axis has extent 128 and is read at the entry's column. -/
theorem biasSpread128_apply (B : (⟨S1x128, .f32⟩ : BufTy).Contents (Elt Ideal)) (i : S50000x128.Idx) :
    broadcastInDim S50000x128 ![0, 1] bcast_S1x128_S50000x128_0_1 B i = B (biasAt128 i) :=
  broadcastInDim_apply ![0, 1] bcast_S1x128_S50000x128_0_1 B i (biasAt128 i) fun a => by
    match a with
    | ⟨0, _⟩ => show 0 = if (1 : Nat) = 1 then 0 else (i 0).val; rw [if_pos rfl]
    | ⟨1, _⟩ => show (i 1).val = if (128 : Nat) = 1 then 0 else (i 1).val; rw [if_neg (by decide)]

/-- The scalar zero spread over the node array, at any entry: the extended real the zero word encodes. -/
theorem zeroSpread128_apply (i : S50000x128.Idx) :
    broadcastInDim S50000x128 ![] bcast_S_S50000x128 (constant (F := Ideal) S_ .f32 0x00000000#32) i
      = Ideal.ofBits .f32 0x00000000#32 :=
  broadcastInDim_apply ![] bcast_S_S50000x128 (constant (F := Ideal) S_ .f32 0x00000000#32) i (fun a => a.elim0)
    fun a => a.elim0

/-- Entry `i = (r, q)` of the stage: max (X(r,q) + B(0,q)) 0. -/
theorem biasRelu128_apply (X : (⟨S50000x128, .f32⟩ : BufTy).Contents (Elt Ideal)) (B : (⟨S1x128, .f32⟩ : BufTy).Contents (Elt Ideal))
    (i : S50000x128.Idx) :
    biasRelu128 (F := Ideal) X B i = max (X i + B (biasAt128 i)) (Ideal.ofBits .f32 0x00000000#32) := by
  unfold biasRelu128
  rw [ValueIdx.maximumf_apply, ValueIdx.addf_apply, biasSpread128_apply, zeroSpread128_apply]

end Cert.RefOps

end
-- ==== Proof.Reg1.lean ====
/-
  REGION 1, the first layer's bias and positive part. The grid has ten points; point `t` stages rows
  5000·t … 5000·t + 4999 of the node array (all 128 columns) and the whole bias row (one row of 128), and its body
  stores into the output tile the maximum of the sum of the two with zero, the bias row repeated down the tile's rows:
  entry (p, q) of the tile is max (x(p,q) + b(0,q)) 0. Row p of point t's tile is row 5000·t + p of the array and the
  tile's columns are the array's, so what point t writes back is rows 5000·t … of the whole array
  max (X + B) 0; the ten tiles cover all 50000 rows (row r lies in tile r / 5000), so the region leaves that whole
  array, computed from the arrays it finds.
-/
import proofs.«162593_j21165598834728_1_alg».proof.Proof.Gen.KernelIdeal.Frame
import proofs.«162593_j21165598834728_1_alg».proof.Proof.RefOps
import proofs.«162593_j21165598834728_1_alg».proof.Proof.RefBR
import Idealize.ShloMosaic.Lib.Pipeline.Value
import Idealize.ShloMosaic.Lib.ValueIdx
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.SL.Sem
open Idealize.ShloMosaic.Pipeline (Dat Cfg Window)

theorem hz : (![0, 0] : Fin 2 → Nat) = fun _ => 0 := funext fun a => by fin_cases a <;> rfl

/-! ## The tile's stored value at an index -/

/-- The staged bias row's entry that lands on entry `j = (p, q)` of the tile: row 0, column `q`. -/
abbrev biasAtTile (j : S5000x128.Idx) : S1x128.Idx := fun a => match a with
  | ⟨0, _⟩ => ⟨0, Nat.one_pos⟩
  | ⟨1, _⟩ => ⟨(j 1).val, (j 1).isLt⟩

/-- The staged bias row spread over the tile, at entry (p, q): b(0, q). The row's first extent is 1, so that axis is
    read at 0; its second extent is 128, read at the entry's column. -/
theorem biasRow_apply (b : Vec Ideal S1x128 .f32) (j : S5000x128.Idx) :
    broadcastTo S5000x128 b broadcasts_S1x128_S5000x128 j = b (biasAtTile j) :=
  broadcastTo_apply b broadcasts_S1x128_S5000x128 j (biasAtTile j) fun a => by
    match a with
    | ⟨0, _⟩ => show 0 = if (1 : Nat) = 1 then 0 else _; rw [if_pos rfl]
    | ⟨1, _⟩ => show (j 1).val = if (128 : Nat) = 1 then 0 else _; rw [if_neg (by decide)]; rfl

/-- The body's stored value at entry (p, q) of the tile: max (x(p,q) + b(0,q)) 0 — the two reshapes are to the shapes
    the operands already have, and the zero is the splat of the zero word. -/
theorem tile_apply (x : Vec Ideal S5000x128 .f32) (b : Vec Ideal S1x128 .f32) (j : S5000x128.Idx) :
    k1_pay1 (F := Ideal) x b j = max (x j + b (biasAtTile j)) (Ideal.ofBits .f32 0x00000000#32) := by
  unfold k1_pay1
  rw [shapeCast_self, shapeCast_self]
  show max (x j + broadcastTo S5000x128 b broadcasts_S1x128_S5000x128 j) (Ideal.ofBits .f32 0x00000000#32) = _
  rw [biasRow_apply]

/-! ## What a grid point writes back, and the cover -/

variable (V : (c : Dev nD) → (b : Ref sig .tc) → Buf (Elt Ideal) ((c : Thread nD τ).loc b))

/-- The printed index maps over the grid: the rows' block index is the point, every other block index is 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Point `t` writes back rows 5000·t … of the whole bias-and-positive-part of the arrays the region finds: row p of
    its tile is row 5000·t + p of the node array in both the operand and the output, and the bias row is staged whole. -/
theorem flushed_eq (c : Dev nD) (t : Fin cfg1.N) :
    (dat1 (F := Ideal) V c).flushed 2 t
      = ((cfg1.win 2).blk t).view.read (Elt Ideal) (Cert.RefOps.biasRelu128 (F := Ideal) (V c main_v43) (V c main_v44)) := by
  show (cfg1.win 2).cut (grid1.coords t) ((dat1 (F := Ideal) V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext y
  show k1_pay1 (F := Ideal) (iblk1 V c 0 t) (iblk1 V c 1 t) y
    = Cert.RefOps.biasRelu128 (F := Ideal) (V c main_v43) (V c main_v44) (((cfg1.win 2).blk t).view.emb y)
  refine (tile_apply (iblk1 V c 0 t) (iblk1 V c 1 t) y).trans ?_
  rw [Cert.RefOps.biasRelu128_apply]
  have hx : iblk1 V c 0 t y = V c main_v43 (((cfg1.win 2).blk t).view.emb y) := by
    show V c main_v43 (((cfg1.win 0).blk t).view.emb y) = _
    refine congrArg _ (funext fun a => Fin.ext ?_)
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 128 + 1 * (y 1).val = win1_2.index t (1 : Fin 2) * 128 + 1 * (y 1).val; omega
  have hb : iblk1 V c 1 t (biasAtTile y) = V c main_v44 (Cert.RefOps.biasAt128 (((cfg1.win 2).blk t).view.emb y)) := by
    show V c main_v44 (((cfg1.win 1).blk t).view.emb (biasAtTile y)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * (y 1).val = win1_2.index t (1 : Fin 2) * 128 + 1 * (y 1).val; omega
  rw [hx, hb]

/-- An index of the array is in point `t`'s tile iff each coordinate is in the tile's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- REGION 1 leaves in its output array the bias-and-positive-part of the arrays it finds in its two operands. -/
theorem final (V : (c : Dev nD) → (b : Ref sig .tc) → Buf (Elt Ideal) ((c : Thread nD τ).loc b)) (c : Dev nD) :
    (dat1 (F := Ideal) V c).arrAt 2 cfg1.N = Cert.RefOps.biasRelu128 (F := Ideal) (V c main_v43) (V c main_v44) :=
  (dat1 (F := Ideal) V c).arrAt_eq_of_cover 2 _ (fun t _ => flushed_eq V c t) fun i => by
    have hi0 : (i 0).val < 50000 := (i 0).isLt
    have hi1 : (i 1).val < 128 := (i 1).isLt
    have hN : cfg1.N = 10 := N_1
    obtain ⟨t, ht⟩ : ∃ t : Fin cfg1.N, t.val = (i 0).val / 5000 := ⟨⟨(i 0).val / 5000, by omega⟩, rfl⟩
    obtain ⟨e0, e1, e2, e3, e4, e5⟩ := idx_facts t
    refine ⟨t, flush1_2 t, ?_⟩
    rw [mem_blk]
    intro a
    match a with
    | ⟨0, _⟩ => show win1_2.index t (0 : Fin 2) * 5000 ≤ (i 0).val ∧ (i 0).val < win1_2.index t (0 : Fin 2) * 5000 + 5000; omega
    | ⟨1, _⟩ => show win1_2.index t (1 : Fin 2) * 128 ≤ (i 1).val ∧ (i 1).val < win1_2.index t (1 : Fin 2) * 128 + 128; omega

end Cert.KernelIdeal.Reg1

end
-- ==== Proof.Reg2.lean ====
/-
  REGION 2, the second layer's product. The left operand is now the first layer's activations — what the bias and the
  positive part left of the aggregated first product, 128 hidden features for each of the 50000 nodes — and the right
  operand is the second layer's 128 × 128 weight. The grid again has ten points; point `t` stages rows 5000·t … 5000·t + 4999
  of the activations (all 128 columns) and the whole weight. The body casts the staged rows to the shape they already
  have, which keeps every entry in its place, changes both operands' float format, which at the ideal values is the
  identity, and stores the MXU product started from the zero splat: entry (p, q) of the tile is Σₖ h(p,k) · w(k,q).
  Row p of point t's tile is row 5000·t + p of the activations and the staged weight is the whole weight, so what point
  t writes back is rows 5000·t … of the whole product `H · W`; row r of the array lies in tile r / 5000, so the ten tiles
  cover all 50000 rows and the region leaves the whole product of the arrays it finds.
-/
import proofs.«162593_j21165598834728_1_alg».proof.Proof.Gen.KernelIdeal.Frame
import proofs.«162593_j21165598834728_1_alg».proof.Proof.RefOps
import proofs.«162593_j21165598834728_1_alg».proof.Proof.RefMM
import Idealize.ShloMosaic.Lib.Pipeline.Value
import Idealize.ShloMosaic.Lib.ValueIdx
import Idealize.ShloMosaic.PureOps.Ideal.Laws

set_option maxRecDepth 16384

noncomputable section

namespace Cert.KernelIdeal.Reg2

open Cert.KernelIdeal Cert.KernelIdeal.Gen
open Idealize.ShloMosaic Idealize.ShloMosaic.TcCoe Idealize.SL.Sem
open Idealize.ShloMosaic.Pipeline (Dat Cfg Window)

theorem hz : (![0, 0] : Fin 2 → Nat) = fun _ => 0 := funext fun a => by fin_cases a <;> rfl

/-! ## The operand indices of the tile's product, coordinate by coordinate -/

/-- The left operand's row is the output's row: axis 0 of the left operand is kept, not contracted. -/
theorem lrow (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction index. -/
theorem lcol (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
/-- The weight's row is the contraction index. -/
theorem rrow (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
/-- The weight's column is the output's column: axis 1 of the weight is kept, not contracted. -/
theorem rcol (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, k) of the staged activations, p = j 0 the output entry's row. -/
abbrev actAt (j : S5000x128.Idx) (k : Fin 128) : S5000x128.Idx := fun a => match a with
  | ⟨0, _⟩ => ⟨(j 0).val, (j 0).isLt⟩
  | ⟨1, _⟩ => ⟨k.val, k.isLt⟩
/-- Entry (k, q) of the staged weight, q = j 1 the output entry's column. -/
abbrev wgtAt (j : S5000x128.Idx) (k : Fin 128) : S128x128.Idx := fun a => match a with
  | ⟨0, _⟩ => ⟨k.val, k.isLt⟩
  | ⟨1, _⟩ => ⟨(j 1).val, (j 1).isLt⟩

/-! ## The tile's product at an index -/

/-- The body's stored value at entry (p, q) of the tile: Σₖ h(p,k) · w(k,q). The cast of the staged rows to their own
    shape is the identity, the format changes are the identity at the ideal values, and the accumulator the product
    starts from is the zero splat. -/
theorem tile_apply (h : Vec Ideal S5000x128 .f32) (w : Vec Ideal S128x128 .f32) (j : S5000x128.Idx) :
    k2_pay1 (F := Ideal) h w j = ∑ k : Fin 128, h (actAt j k) * w (wgtAt j k) := by
  unfold k2_pay1
  simp only [matmul]
  rw [shapeCast_self h shapeCasts_S5000x128_S5000x128, Ideal.matmul_constant_zero_apply,
    ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = actAt j k := funext fun a => Fin.ext (by
    match a with
    | ⟨0, _⟩ => exact lrow _ _
    | ⟨1, _⟩ => exact (lcol _ _).trans hk)
  have er : dot_S5000x128_S128x128_S5000x128_1_0_0_1_n_n.rhsIdx j ((ValueIdx.contrEquiv1 dot_S5000x128_S128x128_S5000x128_1_0_0_1_n_n 128 rfl rfl).symm k) = wgtAt j k := funext fun a => Fin.ext (by
    match a with
    | ⟨0, _⟩ => exact (rrow _ _).trans hk
    | ⟨1, _⟩ => exact rcol _ _)
  rw [el, er]
  rfl

/-! ## What a grid point writes back, and the cover -/

variable (V : (c : Dev nD) → (b : Ref sig .tc) → Buf (Elt Ideal) ((c : Thread nD τ).loc b))

/-- The printed index maps over the grid: the block index along the rows of the activations and of the output is the
    point, every other block index is 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Point `t` writes back rows 5000·t … of the whole product of the activations and the weight the region finds. -/
theorem flushed_eq (c : Dev nD) (t : Fin cfg2.N) :
    (dat2 (F := Ideal) V c).flushed 2 t
      = ((cfg2.win 2).blk t).view.read (Elt Ideal) (Cert.RefOps.mm128 (F := Ideal) (V c main_v45) (V c main_arg3)) := by
  show (cfg2.win 2).cut (grid2.coords t) ((dat2 (F := Ideal) V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext y
  show k2_pay1 (F := Ideal) (iblk2 V c 0 t) (iblk2 V c 1 t) y
    = Cert.RefOps.mm128 (F := Ideal) (V c main_v45) (V c main_arg3) (((cfg2.win 2).blk t).view.emb y)
  refine (tile_apply (iblk2 V c 0 t) (iblk2 V c 1 t) y).trans ?_
  rw [Cert.RefOps.mm128_apply]
  refine Finset.sum_congr rfl fun k _ => ?_
  -- entry (p, k) of the staged rows is entry (5000·t + p, k) of the activations
  have hh : iblk2 V c 0 t (actAt y k) = V c main_v45 (Cert.RefOps.rowAt128 (((cfg2.win 2).blk t).view.emb y) k) := by
    show V c main_v45 (((cfg2.win 0).blk t).view.emb (actAt y k)) = _
    refine congrArg _ (funext fun a => Fin.ext ?_)
    match a with
    | ⟨0, _⟩ => show win2_0.index t (0 : Fin 2) * 5000 + 1 * (y 0).val = win2_2.index t (0 : Fin 2) * 5000 + 1 * (y 0).val; omega
    | ⟨1, _⟩ => show win2_0.index t (1 : Fin 2) * 128 + 1 * k.val = k.val; omega
  -- entry (k, q) of the staged weight is entry (k, q) of the weight
  have hw : iblk2 V c 1 t (wgtAt y k) = V c main_arg3 (Cert.RefOps.colAt128 (((cfg2.win 2).blk t).view.emb y) k) := by
    show V c main_arg3 (((cfg2.win 1).blk t).view.emb (wgtAt y k)) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (y 1).val = win2_2.index t (1 : Fin 2) * 128 + 1 * (y 1).val; omega
  rw [hh, hw]

/-- An index of the output array is in point `t`'s tile iff each of its coordinates is in the tile's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- REGION 2 leaves in its output array the whole product of the activations and the weight it finds. -/
theorem final (c : Dev nD) :
    (dat2 (F := Ideal) V c).arrAt 2 cfg2.N = Cert.RefOps.mm128 (F := Ideal) (V c main_v45) (V c main_arg3) :=
  (dat2 (F := Ideal) V c).arrAt_eq_of_cover 2 _ (fun t _ => flushed_eq V c t) fun i => by
    have hr : (i 0).val < 50000 := (i 0).isLt
    have hq : (i 1).val < 128 := (i 1).isLt
    have hN : cfg2.N = 10 := N_2
    -- row r lies in tile r / 5000
    obtain ⟨t, ht⟩ : ∃ t : Fin cfg2.N, t.val = (i 0).val / 5000 := ⟨⟨(i 0).val / 5000, by omega⟩, rfl⟩
    obtain ⟨e0, e1, e2, e3, e4, e5⟩ := idx_facts t
    refine ⟨t, flush2_2 t, ?_⟩
    rw [mem_blk]
    intro a
    match a with
    | ⟨0, _⟩ => show win2_2.index t (0 : Fin 2) * 5000 ≤ (i 0).val ∧ (i 0).val < win2_2.index t (0 : Fin 2) * 5000 + 5000; omega
    | ⟨1, _⟩ => show win2_2.index t (1 : Fin 2) * 128 ≤ (i 1).val ∧ (i 1).val < win2_2.index t (1 : Fin 2) * 128 + 128; omega

end Cert.KernelIdeal.Reg2

end
-- ==== Proof.Reg3.lean ====
/-
  REGION 3, the second layer's bias and positive part: the same mathematics as REGION 1, one layer on, for the arrays
  this region finds. The grid has ten points; point `t` stages rows 5000·t … 5000·t + 4999 of the second layer's node
  array (all 128 columns) and the whole second bias row (one row of 128), and its body stores into the output tile the
  maximum of the sum of the two with zero, the bias row repeated down the tile's rows: entry (p, q) of the tile is
  max (x(p,q) + b(0,q)) 0. Row p of point t's tile is row 5000·t + p of the array and the tile's columns are the
  array's, so what point t writes back is rows 5000·t … of the whole array max (X + B) 0; the ten tiles cover all
  50000 rows (row r lies in tile r / 5000), so the region leaves that whole array, computed from the arrays it finds.
-/
import proofs.«162593_j21165598834728_1_alg».proof.Proof.Gen.KernelIdeal.Frame
import proofs.«162593_j21165598834728_1_alg».proof.Proof.RefOps
import proofs.«162593_j21165598834728_1_alg».proof.Proof.RefBR
import Idealize.ShloMosaic.Lib.Pipeline.Value
import Idealize.ShloMosaic.Lib.ValueIdx
import Idealize.ShloMosaic.PureOps.Ideal.Laws

set_option maxRecDepth 16384

noncomputable section

namespace Cert.KernelIdeal.Reg3

open Cert.KernelIdeal Cert.KernelIdeal.Gen
open Idealize.ShloMosaic Idealize.ShloMosaic.TcCoe Idealize.SL.Sem
open Idealize.ShloMosaic.Pipeline (Dat Cfg Window)

theorem hz : (![0, 0] : Fin 2 → Nat) = fun _ => 0 := funext fun a => by fin_cases a <;> rfl

/-! ## The tile's stored value at an index -/

/-- The staged bias row's entry that lands on entry `j = (p, q)` of the tile: row 0, column `q`. -/
abbrev biasAtTile (j : S5000x128.Idx) : S1x128.Idx := fun a => match a with
  | ⟨0, _⟩ => ⟨0, Nat.one_pos⟩
  | ⟨1, _⟩ => ⟨(j 1).val, (j 1).isLt⟩

/-- The staged bias row spread over the tile, at entry (p, q): b(0, q). The row's first extent is 1, so that axis is
    read at 0; its second extent is 128, read at the entry's column. -/
theorem biasRow_apply (b : Vec Ideal S1x128 .f32) (j : S5000x128.Idx) :
    broadcastTo S5000x128 b broadcasts_S1x128_S5000x128 j = b (biasAtTile j) :=
  broadcastTo_apply b broadcasts_S1x128_S5000x128 j (biasAtTile j) fun a => by
    match a with
    | ⟨0, _⟩ => show 0 = if (1 : Nat) = 1 then 0 else _; rw [if_pos rfl]
    | ⟨1, _⟩ => show (j 1).val = if (128 : Nat) = 1 then 0 else _; rw [if_neg (by decide)]; rfl

/-- The body's stored value at entry (p, q) of the tile: max (x(p,q) + b(0,q)) 0 — the two reshapes are to the shapes
    the operands already have, and the zero is the splat of the zero word. -/
theorem tile_apply (x : Vec Ideal S5000x128 .f32) (b : Vec Ideal S1x128 .f32) (j : S5000x128.Idx) :
    k3_pay1 (F := Ideal) x b j = max (x j + b (biasAtTile j)) (Ideal.ofBits .f32 0x00000000#32) := by
  unfold k3_pay1
  rw [shapeCast_self, shapeCast_self]
  show max (x j + broadcastTo S5000x128 b broadcasts_S1x128_S5000x128 j) (Ideal.ofBits .f32 0x00000000#32) = _
  rw [biasRow_apply]

/-! ## What a grid point writes back, and the cover -/

variable (V : (c : Dev nD) → (b : Ref sig .tc) → Buf (Elt Ideal) ((c : Thread nD τ).loc b))

/-- The printed index maps over the grid: the rows' block index is the point, every other block index is 0. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Point `t` writes back rows 5000·t … of the whole bias-and-positive-part of the arrays the region finds: row p of
    its tile is row 5000·t + p of the node array in both the operand and the output, and the bias row is staged whole. -/
theorem flushed_eq (c : Dev nD) (t : Fin cfg3.N) :
    (dat3 (F := Ideal) V c).flushed 2 t
      = ((cfg3.win 2).blk t).view.read (Elt Ideal) (Cert.RefOps.biasRelu128 (F := Ideal) (V c main_v59) (V c main_v60)) := by
  show (cfg3.win 2).cut (grid3.coords t) ((dat3 (F := Ideal) V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx_facts t
  funext y
  show k3_pay1 (F := Ideal) (iblk3 V c 0 t) (iblk3 V c 1 t) y
    = Cert.RefOps.biasRelu128 (F := Ideal) (V c main_v59) (V c main_v60) (((cfg3.win 2).blk t).view.emb y)
  refine (tile_apply (iblk3 V c 0 t) (iblk3 V c 1 t) y).trans ?_
  rw [Cert.RefOps.biasRelu128_apply]
  have hx : iblk3 V c 0 t y = V c main_v59 (((cfg3.win 2).blk t).view.emb y) := by
    show V c main_v59 (((cfg3.win 0).blk t).view.emb y) = _
    refine congrArg _ (funext fun a => Fin.ext ?_)
    match a with
    | ⟨0, _⟩ => show win3_0.index t (0 : Fin 2) * 5000 + 1 * (y 0).val = win3_2.index t (0 : Fin 2) * 5000 + 1 * (y 0).val; omega
    | ⟨1, _⟩ => show win3_0.index t (1 : Fin 2) * 128 + 1 * (y 1).val = win3_2.index t (1 : Fin 2) * 128 + 1 * (y 1).val; omega
  have hb : iblk3 V c 1 t (biasAtTile y) = V c main_v60 (Cert.RefOps.biasAt128 (((cfg3.win 2).blk t).view.emb y)) := by
    show V c main_v60 (((cfg3.win 1).blk t).view.emb (biasAtTile y)) = _
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * (y 1).val = win3_2.index t (1 : Fin 2) * 128 + 1 * (y 1).val; omega
  rw [hx, hb]

/-- An index of the array is in point `t`'s tile iff each coordinate is in the tile's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- REGION 3 leaves in its output array the bias-and-positive-part of the arrays it finds in its two operands. -/
theorem final (V : (c : Dev nD) → (b : Ref sig .tc) → Buf (Elt Ideal) ((c : Thread nD τ).loc b)) (c : Dev nD) :
    (dat3 (F := Ideal) V c).arrAt 2 cfg3.N = Cert.RefOps.biasRelu128 (F := Ideal) (V c main_v59) (V c main_v60) :=
  (dat3 (F := Ideal) V c).arrAt_eq_of_cover 2 _ (fun t _ => flushed_eq V c t) fun i => by
    have hi0 : (i 0).val < 50000 := (i 0).isLt
    have hi1 : (i 1).val < 128 := (i 1).isLt
    have hN : cfg3.N = 10 := N_3
    obtain ⟨t, ht⟩ : ∃ t : Fin cfg3.N, t.val = (i 0).val / 5000 := ⟨⟨(i 0).val / 5000, by omega⟩, rfl⟩
    obtain ⟨e0, e1, e2, e3, e4, e5⟩ := idx_facts t
    refine ⟨t, flush3_2 t, ?_⟩
    rw [mem_blk]
    intro a
    match a with
    | ⟨0, _⟩ => show win3_2.index t (0 : Fin 2) * 5000 ≤ (i 0).val ∧ (i 0).val < win3_2.index t (0 : Fin 2) * 5000 + 5000; omega
    | ⟨1, _⟩ => show win3_2.index t (1 : Fin 2) * 128 ≤ (i 1).val ∧ (i 1).val < win3_2.index t (1 : Fin 2) * 128 + 128; omega

end Cert.KernelIdeal.Reg3

end
-- ==== Proof.Reg4.lean ====
/-
  REGION 4, the last layer's product. The left operand is the second layer's activations — what the bias and the
  positive part left of the aggregated second product, 128 hidden features for each of the 50000 nodes — and the right
  operand is the last layer's 128 × 64 weight, so the product has 64 columns, one per class. The grid has ten points;
  point `t` stages rows 5000·t … 5000·t + 4999 of the activations (all 128 columns) and the whole weight, and its output
  tile is 5000 × 64. The body casts the staged rows to the shape they already have, which moves no entry, changes both
  operands' float format, which at the ideal values is the identity, and stores the MXU product started from the zero
  splat: entry (p, q) of the tile, q < 64, is Σₖ h(p,k) · w(k,q), the sum over the 128 hidden features. Row p of point
  t's tile is row 5000·t + p of the activations and the staged weight is the whole weight, so what point t writes back
  is rows 5000·t … of the whole product `H · W`; row r of the 50000 × 64 array lies in tile r / 5000, so the ten tiles
  cover it and the region leaves the whole product of the arrays it finds.
-/
import proofs.«162593_j21165598834728_1_alg».proof.Proof.Gen.KernelIdeal.Frame
import proofs.«162593_j21165598834728_1_alg».proof.Proof.RefOps
import proofs.«162593_j21165598834728_1_alg».proof.Proof.RefMM
import Idealize.ShloMosaic.Lib.Pipeline.Value
import Idealize.ShloMosaic.Lib.ValueIdx
import Idealize.ShloMosaic.PureOps.Ideal.Laws

set_option maxRecDepth 16384

noncomputable section

namespace Cert.KernelIdeal.Reg4

open Cert.KernelIdeal Cert.KernelIdeal.Gen
open Idealize.ShloMosaic Idealize.ShloMosaic.TcCoe Idealize.SL.Sem
open Idealize.ShloMosaic.Pipeline (Dat Cfg Window)

theorem hz : (![0, 0] : Fin 2 → Nat) = fun _ => 0 := funext fun a => by fin_cases a <;> rfl

/-! ## The operand indices of the tile's product, coordinate by coordinate -/

/-- The left operand's row is the output's row: axis 0 of the left operand is kept, not contracted. -/
theorem lrow (j : S5000x64.Idx) (q : dot_S5000x128_S128x64_S5000x64_1_0_0_1_n_n.contr.Idx) : (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column is the contraction index. -/
theorem lcol (j : S5000x64.Idx) (q : dot_S5000x128_S128x64_S5000x64_1_0_0_1_n_n.contr.Idx) : (dot_S5000x128_S128x64_S5000x64_1_0_0_1_n_n.lhsIdx j q 1).val = (q ⟨0, by decide⟩).val :=
  dot_S5000x128_S128x64_S5000x64_1_0_0_1_n_n.lhsIdx_val_of_single rfl j q
/-- The weight's row is the contraction index. -/
theorem rrow (j : S5000x64.Idx) (q : dot_S5000x128_S128x64_S5000x64_1_0_0_1_n_n.contr.Idx) : (dot_S5000x128_S128x64_S5000x64_1_0_0_1_n_n.rhsIdx j q 0).val = (q ⟨0, by decide⟩).val :=
  dot_S5000x128_S128x64_S5000x64_1_0_0_1_n_n.rhsIdx_val_of_single rfl j q
/-- The weight's column is the output's column: axis 1 of the weight is kept, not contracted. -/
theorem rcol (j : S5000x64.Idx) (q : dot_S5000x128_S128x64_S5000x64_1_0_0_1_n_n.contr.Idx) : (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (p, k) of the staged activations, p = j 0 the output entry's row. -/
abbrev actAt (j : S5000x64.Idx) (k : Fin 128) : S5000x128.Idx := fun a => match a with
  | ⟨0, _⟩ => ⟨(j 0).val, (j 0).isLt⟩
  | ⟨1, _⟩ => ⟨k.val, k.isLt⟩
/-- Entry (k, q) of the staged weight, q = j 1 the output entry's column (one of 64). -/
abbrev wgtAt (j : S5000x64.Idx) (k : Fin 128) : S128x64.Idx := fun a => match a with
  | ⟨0, _⟩ => ⟨k.val, k.isLt⟩
  | ⟨1, _⟩ => ⟨(j 1).val, (j 1).isLt⟩

/-! ## The tile's product at an index -/

/-- The body's stored value at entry (p, q) of the 5000 × 64 tile: Σₖ h(p,k) · w(k,q) over the 128 hidden features. The
    cast of the staged rows to their own shape is the identity, the format changes are the identity at the ideal
    values, and the accumulator the product starts from is the zero splat. -/
theorem tile_apply (h : Vec Ideal S5000x128 .f32) (w : Vec Ideal S128x64 .f32) (j : S5000x64.Idx) :
    k4_pay1 (F := Ideal) h w j = ∑ k : Fin 128, h (actAt j k) * w (wgtAt j k) := by
  unfold k4_pay1
  simp only [matmul]
  rw [shapeCast_self h shapeCasts_S5000x128_S5000x128, Ideal.matmul_constant_zero_apply,
    ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = actAt j k := funext fun a => Fin.ext (by
    match a with
    | ⟨0, _⟩ => exact lrow _ _
    | ⟨1, _⟩ => exact (lcol _ _).trans hk)
  have er : dot_S5000x128_S128x64_S5000x64_1_0_0_1_n_n.rhsIdx j ((ValueIdx.contrEquiv1 dot_S5000x128_S128x64_S5000x64_1_0_0_1_n_n 128 rfl rfl).symm k) = wgtAt j k := funext fun a => Fin.ext (by
    match a with
    | ⟨0, _⟩ => exact (rrow _ _).trans hk
    | ⟨1, _⟩ => exact rcol _ _)
  rw [el, er]
  rfl

/-! ## What a grid point writes back, and the cover -/

variable (V : (c : Dev nD) → (b : Ref sig .tc) → Buf (Elt Ideal) ((c : Thread nD τ).loc b))

/-- The printed index maps over the grid: the block index along the rows of the activations and of the output is the
    point, every other block index is 0. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Point `t` writes back rows 5000·t … of the whole product of the activations and the weight the region finds. -/
theorem flushed_eq (c : Dev nD) (t : Fin cfg4.N) :
    (dat4 (F := Ideal) V c).flushed 2 t
      = ((cfg4.win 2).blk t).view.read (Elt Ideal) (Cert.RefOps.mm64 (F := Ideal) (V c main_v61) (V c main_arg5)) := by
  show (cfg4.win 2).cut (grid4.coords t) ((dat4 (F := Ideal) V c).after 2 t) = _
  rw [after4_2]
  unfold out4_2
  rw [View.canon_unit_zero hz]
  simp only [View.ld_unit_zero (S := S5000x128) hz, View.ld_unit_zero (S := S128x64) hz]
  obtain ⟨e0, e1, e2, e3, e4, e5⟩ := idx_facts t
  funext y
  show k4_pay1 (F := Ideal) (iblk4 V c 0 t) (iblk4 V c 1 t) y
    = Cert.RefOps.mm64 (F := Ideal) (V c main_v61) (V c main_arg5) (((cfg4.win 2).blk t).view.emb y)
  refine (tile_apply (iblk4 V c 0 t) (iblk4 V c 1 t) y).trans ?_
  rw [Cert.RefOps.mm64_apply]
  refine Finset.sum_congr rfl fun k _ => ?_
  -- entry (p, k) of the staged rows is entry (5000·t + p, k) of the activations
  have hh : iblk4 V c 0 t (actAt y k) = V c main_v61 (Cert.RefOps.rowAt64 (((cfg4.win 2).blk t).view.emb y) k) := by
    show V c main_v61 (((cfg4.win 0).blk t).view.emb (actAt y k)) = _
    refine congrArg _ (funext fun a => Fin.ext ?_)
    match a with
    | ⟨0, _⟩ => show win4_0.index t (0 : Fin 2) * 5000 + 1 * (y 0).val = win4_2.index t (0 : Fin 2) * 5000 + 1 * (y 0).val; omega
    | ⟨1, _⟩ => show win4_0.index t (1 : Fin 2) * 128 + 1 * k.val = k.val; omega
  -- entry (k, q) of the staged weight is entry (k, q) of the weight
  have hw : iblk4 V c 1 t (wgtAt y k) = V c main_arg5 (Cert.RefOps.colAt64 (((cfg4.win 2).blk t).view.emb y) k) := by
    show V c main_arg5 (((cfg4.win 1).blk t).view.emb (wgtAt y k)) = _
    refine congrArg _ (funext fun a => Fin.ext ?_)
    match a with
    | ⟨0, _⟩ => show win4_1.index t (0 : Fin 2) * 128 + 1 * k.val = k.val; omega
    | ⟨1, _⟩ => show win4_1.index t (1 : Fin 2) * 64 + 1 * (y 1).val = win4_2.index t (1 : Fin 2) * 64 + 1 * (y 1).val; omega
  rw [hh, hw]

/-- An index of the output array is in point `t`'s tile iff each of its coordinates is in the tile's range on its axis. -/
theorem mem_blk (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v62).slice (win4_2.rect t)).set ↔ _
  rw [View.set_slice_whole, Rect.mem_set_unit]
  exact Iff.rfl

/-- REGION 4 leaves in its output array the whole product of the activations and the weight it finds. -/
theorem final (c : Dev nD) :
    (dat4 (F := Ideal) V c).arrAt 2 cfg4.N = Cert.RefOps.mm64 (F := Ideal) (V c main_v61) (V c main_arg5) :=
  (dat4 (F := Ideal) V c).arrAt_eq_of_cover 2 _ (fun t _ => flushed_eq V c t) fun i => by
    have hr : (i 0).val < 50000 := (i 0).isLt
    have hq : (i 1).val < 64 := (i 1).isLt
    have hN : cfg4.N = 10 := N_4
    -- row r lies in tile r / 5000
    obtain ⟨t, ht⟩ : ∃ t : Fin cfg4.N, t.val = (i 0).val / 5000 := ⟨⟨(i 0).val / 5000, by omega⟩, rfl⟩
    obtain ⟨e0, e1, e2, e3, e4, e5⟩ := idx_facts t
    refine ⟨t, flush4_2 t, ?_⟩
    rw [mem_blk]
    intro a
    match a with
    | ⟨0, _⟩ => show win4_2.index t (0 : Fin 2) * 5000 ≤ (i 0).val ∧ (i 0).val < win4_2.index t (0 : Fin 2) * 5000 + 5000; omega
    | ⟨1, _⟩ => show win4_2.index t (1 : Fin 2) * 64 ≤ (i 1).val ∧ (i 1).val < win4_2.index t (1 : Fin 2) * 64 + 64; omega

end Cert.KernelIdeal.Reg4

end
-- ==== Proof.KFold.lean ====
/-
  The kernel program's buffers followed from the launch to the last region's entry. @main alternates stretches of host
  operations with its six regions; the generated frame names the buffer contents at each of the thirteen boundaries
  (`W0` at launch … `W12` at return). Here the contents that matter are read at each boundary as functions of the
  arguments:
    · after the first three stretches the edge list has become the edges' sources and targets (with self-loops) and
      the edges' weights; these, and the arguments, are written by nothing afterwards, so every later boundary still
      holds them;
    · a stretch between regions gathers the rows of the last product along the edges, scales them, scatter-adds them
      at the targets, and lays the layer's bias out as one row (a 128-vector recast as 1 × 128 is the vector broadcast
      into one row);
    · a region leaves in its output array the dense stage of the arrays it finds (the regions' own modules), and
      every other array as it found it.
  Chained, region 5 is entered with the third layer's aggregated product and bias row as functions of the arguments.
-/
import proofs.«162593_j21165598834728_1_alg».proof.Proof.Gen.KernelIdeal.Frame
import proofs.«162593_j21165598834728_1_alg».proof.Proof.RefOps
import proofs.«162593_j21165598834728_1_alg».proof.Proof.RefGlue
import proofs.«162593_j21165598834728_1_alg».proof.Proof.RefNet
import proofs.«162593_j21165598834728_1_alg».proof.Proof.Reg0
import proofs.«162593_j21165598834728_1_alg».proof.Proof.Reg1
import proofs.«162593_j21165598834728_1_alg».proof.Proof.Reg2
import proofs.«162593_j21165598834728_1_alg».proof.Proof.Reg3
import proofs.«162593_j21165598834728_1_alg».proof.Proof.Reg4
import Idealize.ShloMosaic.Lib.StableHlo.Run
import Idealize.ShloMosaic.Lib.Pipeline.Value
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

/-- A buffer none of a stretch's operations writes keeps its contents across the stretch. -/
local macro "not_written" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

section AnyValues

variable {F : FTy → Type} [FloatOps F]

/-! ## A bias vector recast as one row is the vector broadcast into one row -/

theorem row128 (b : (⟨S128, .f32⟩ : BufTy).Contents (Elt F)) :
    shapeCast S1x128 b shapeCasts_S128_S1x128 = Cert.RefOps.biasRow128 b := by
  funext i
  unfold Cert.RefOps.biasRow128
  have h0 : (i 0).val < 1 := (i 0).isLt
  rw [shapeCast_apply b shapeCasts_S128_S1x128 i (fun a => match a with | ⟨0, _⟩ => ⟨(i 1).val, (i 1).isLt⟩)
        (by rw [Shape.rowMajor_val_one, Shape.rowMajor_val_two]; show (i 1).val = (i 0).val * 128 + (i 1).val; omega),
      broadcastInDim_apply _ _ b i (fun a => match a with | ⟨0, _⟩ => ⟨(i 1).val, (i 1).isLt⟩) (fun a => match a with
        | ⟨0, _⟩ => by show (i 1).val = if (128 : Nat) = 1 then 0 else (i 1).val; rw [if_neg (by decide)])]

theorem row64 (b : (⟨S64, .f32⟩ : BufTy).Contents (Elt F)) :
    shapeCast S1x64 b shapeCasts_S64_S1x64 = Cert.RefOps.biasRow64 b := by
  funext i
  unfold Cert.RefOps.biasRow64
  have h0 : (i 0).val < 1 := (i 0).isLt
  rw [shapeCast_apply b shapeCasts_S64_S1x64 i (fun a => match a with | ⟨0, _⟩ => ⟨(i 1).val, (i 1).isLt⟩)
        (by rw [Shape.rowMajor_val_one, Shape.rowMajor_val_two]; show (i 1).val = (i 0).val * 64 + (i 1).val; omega),
      broadcastInDim_apply _ _ b i (fun a => match a with | ⟨0, _⟩ => ⟨(i 1).val, (i 1).isLt⟩) (fun a => match a with
        | ⟨0, _⟩ => by show (i 1).val = if (64 : Nat) = 1 then 0 else (i 1).val; rw [if_neg (by decide)])]

variable (m : (ℓ : Loc nD τ sig) → Buf (Elt F) ℓ) (ρ : Dev nD → PrngReg)

/-! ## What each stretch writes, from the boundary before it -/

/-- The first stretch: the edges' sources with the self-loops … -/
theorem W1_v3 (c : Dev nD) : W1 m ρ c (Proc.devRef .tc main_v3) = Cert.RefOps.srcE (W0 m ρ c (Proc.devRef .tc main_arg7)) := by
  show StableHlo.after hostOps0 (W0 m ρ c) (Proc.devRef .tc main_v3) = _
  generalize W0 m ρ c = U
  after_results
  rfl

/-- … the edges' targets with the self-loops … -/
theorem W1_v6 (c : Dev nD) : W1 m ρ c (Proc.devRef .tc main_v6) = Cert.RefOps.dstE (W0 m ρ c (Proc.devRef .tc main_arg7)) := by
  show StableHlo.after hostOps0 (W0 m ρ c) (Proc.devRef .tc main_v6) = _
  generalize W0 m ρ c = U
  after_results
  rfl

/-- … where the degree is positive … -/
theorem W1_v12 (c : Dev nD) : W1 m ρ c (Proc.devRef .tc main_v12)
    = cmpf .ogt (Cert.RefOps.degE (W0 m ρ c (Proc.devRef .tc main_arg7)))
        (broadcastInDim S50000 ![] bcast_S_S50000 (constant S_ .f32 0x00000000#32)) := by
  show StableHlo.after hostOps0 (W0 m ρ c) (Proc.devRef .tc main_v12) = _
  generalize W0 m ρ c = U
  after_results
  rfl

/-- … the degree's inverse square root … -/
theorem W1_v13 (c : Dev nD) : W1 m ρ c (Proc.devRef .tc main_v13) = Host.rsqrt (Cert.RefOps.degE (W0 m ρ c (Proc.devRef .tc main_arg7))) := by
  show StableHlo.after hostOps0 (W0 m ρ c) (Proc.devRef .tc main_v13) = _
  generalize W0 m ρ c = U
  after_results
  rfl

/-- … and the zero that stands where the degree is not positive. -/
theorem W1_cst_2 (c : Dev nD) : W1 m ρ c (Proc.devRef .tc main_cst_2) = constant S_ .f32 0x00000000#32 := by
  show StableHlo.after hostOps0 (W0 m ρ c) (Proc.devRef .tc main_cst_2) = _
  generalize W0 m ρ c = U
  after_results

/-- The second stretch selects between the two: the normalisation `1/√deg`, `0` where the degree is not positive. -/
theorem W2_v14 (c : Dev nD) : W2 m ρ c (Proc.devRef .tc main_v14) = Cert.RefOps.disE (W0 m ρ c (Proc.devRef .tc main_arg7)) := by
  show StableHlo.after hostOps0_1 (W1 m ρ c) (Proc.devRef .tc main_v14) = _
  have h12 := W1_v12 m ρ c
  have h13 := W1_v13 m ρ c
  have hc := W1_cst_2 m ρ c
  generalize W1 m ρ c = U at h12 h13 hc ⊢
  after_results_simp
  rw [h12, h13, hc]
  rfl

/-- The third stretch: an edge's weight, the normalisation at its (wrapped) source times that at its (wrapped) target. -/
theorem W3_v29_raw (c : Dev nD) : W3 m ρ c (Proc.devRef .tc main_v29)
    = mulf (Host.gather gather_S50000_S850000x1_S850000_n_0_n_n_0_1_1 (W2 m ρ c (Proc.devRef .tc main_v14))
              (broadcastInDim S850000x1 ![0] bcast_S850000_S850000x1_0 (Cert.RefOps.wrapIdx (W2 m ρ c (Proc.devRef .tc main_v3)))))
           (Host.gather gather_S50000_S850000x1_S850000_n_0_n_n_0_1_1 (W2 m ρ c (Proc.devRef .tc main_v14))
              (broadcastInDim S850000x1 ![0] bcast_S850000_S850000x1_0 (Cert.RefOps.wrapIdx (W2 m ρ c (Proc.devRef .tc main_v6))))) := by
  show StableHlo.after hostOps0_2 (W2 m ρ c) (Proc.devRef .tc main_v29) = _
  generalize W2 m ρ c = U
  after_results_simp
  rfl

/-- The stretch after region 0: the first product's rows aggregated along the edges … -/
theorem W5_v43_raw (c : Dev nD) : W5 m ρ c (Proc.devRef .tc main_v43)
    = Cert.RefOps.agg128 (W4 m ρ c (Proc.devRef .tc main_v30)) (W4 m ρ c (Proc.devRef .tc main_v3)) (W4 m ρ c (Proc.devRef .tc main_v29)) (W4 m ρ c (Proc.devRef .tc main_v6)) := by
  show StableHlo.after hostOps1 (W4 m ρ c) (Proc.devRef .tc main_v43) = _
  generalize W4 m ρ c = U
  after_results_simp
  rfl

/-- … and the first bias as one row. -/
theorem W5_v44_raw (c : Dev nD) : W5 m ρ c (Proc.devRef .tc main_v44) = Cert.RefOps.biasRow128 (W4 m ρ c (Proc.devRef .tc main_arg2)) := by
  show StableHlo.after hostOps1 (W4 m ρ c) (Proc.devRef .tc main_v44) = _
  generalize W4 m ρ c = U
  after_results_simp
  exact row128 _

/-- The stretch after region 2: the second product's rows aggregated along the edges … -/
theorem W8_v59_raw (c : Dev nD) : W8 m ρ c (Proc.devRef .tc main_v59)
    = Cert.RefOps.agg128 (W7 m ρ c (Proc.devRef .tc main_v46)) (W7 m ρ c (Proc.devRef .tc main_v3)) (W7 m ρ c (Proc.devRef .tc main_v29)) (W7 m ρ c (Proc.devRef .tc main_v6)) := by
  show StableHlo.after hostOps3 (W7 m ρ c) (Proc.devRef .tc main_v59) = _
  generalize W7 m ρ c = U
  after_results_simp
  rfl

/-- … and the second bias as one row. -/
theorem W8_v60_raw (c : Dev nD) : W8 m ρ c (Proc.devRef .tc main_v60) = Cert.RefOps.biasRow128 (W7 m ρ c (Proc.devRef .tc main_arg4)) := by
  show StableHlo.after hostOps3 (W7 m ρ c) (Proc.devRef .tc main_v60) = _
  generalize W7 m ρ c = U
  after_results_simp
  exact row128 _

/-- The stretch after region 4: the third product's rows aggregated along the edges … -/
theorem W11_v75_raw (c : Dev nD) : W11 m ρ c (Proc.devRef .tc main_v75)
    = Cert.RefOps.agg64 (W10 m ρ c (Proc.devRef .tc main_v62)) (W10 m ρ c (Proc.devRef .tc main_v3)) (W10 m ρ c (Proc.devRef .tc main_v29)) (W10 m ρ c (Proc.devRef .tc main_v6)) := by
  show StableHlo.after hostOps5 (W10 m ρ c) (Proc.devRef .tc main_v75) = _
  generalize W10 m ρ c = U
  after_results_simp
  rfl

/-- … and the third bias as one row. -/
theorem W11_v76_raw (c : Dev nD) : W11 m ρ c (Proc.devRef .tc main_v76) = Cert.RefOps.biasRow64 (W10 m ρ c (Proc.devRef .tc main_arg6)) := by
  show StableHlo.after hostOps5 (W10 m ρ c) (Proc.devRef .tc main_v76) = _
  generalize W10 m ρ c = U
  after_results_simp
  exact row64 _

/-! ## What is carried: written once, read later, touched by nothing in between -/

/-- The arguments a later stretch or region still reads (the edge list is read by the first stretch only). -/
abbrev argRefs : List (Ref sig .tc) := [main_arg0, main_arg1, main_arg2, main_arg3, main_arg4, main_arg5, main_arg6]
/-- With the edges' sources and targets, which the first stretch writes. -/
abbrev edgeRefs : List (Ref sig .tc) := main_v3 :: main_v6 :: argRefs
/-- With the edges' weights, which the third stretch writes. -/
abbrev carried : List (Ref sig .tc) := main_v29 :: edgeRefs

theorem agree_0_1 (c : Dev nD) : ∀ b ∈ argRefs, W1 m ρ c (Proc.devRef .tc b) = W0 m ρ c (Proc.devRef .tc b) := by
  intro b hb
  show StableHlo.after hostOps0 (W0 m ρ c) (Proc.devRef .tc b) = _
  simp only [argRefs, List.mem_cons, List.mem_singleton, List.not_mem_nil, or_false] at hb
  rcases hb with rfl | rfl | rfl | rfl | rfl | rfl | rfl <;> not_written hostOps0

theorem agree_1_2 (c : Dev nD) : ∀ b ∈ edgeRefs, W2 m ρ c (Proc.devRef .tc b) = W1 m ρ c (Proc.devRef .tc b) := by
  intro b hb
  show StableHlo.after hostOps0_1 (W1 m ρ c) (Proc.devRef .tc b) = _
  simp only [edgeRefs, argRefs, List.mem_cons, List.mem_singleton, List.not_mem_nil, or_false] at hb
  rcases hb with rfl | rfl | rfl | rfl | rfl | rfl | rfl | rfl | rfl <;> not_written hostOps0_1

theorem agree_2_3 (c : Dev nD) : ∀ b ∈ edgeRefs, W3 m ρ c (Proc.devRef .tc b) = W2 m ρ c (Proc.devRef .tc b) := by
  intro b hb
  show StableHlo.after hostOps0_2 (W2 m ρ c) (Proc.devRef .tc b) = _
  simp only [edgeRefs, argRefs, List.mem_cons, List.mem_singleton, List.not_mem_nil, or_false] at hb
  rcases hb with rfl | rfl | rfl | rfl | rfl | rfl | rfl | rfl | rfl <;> not_written hostOps0_2

/-- Region 0 reads `x` and the first weight through its input windows and writes only its output. -/
theorem agree_3_4 (c : Dev nD) : ∀ b ∈ carried, W4 m ρ c (Proc.devRef .tc b) = W3 m ρ c (Proc.devRef .tc b) := by
  intro b hb
  simp only [carried, edgeRefs, argRefs, List.mem_cons, List.mem_singleton, List.not_mem_nil, or_false] at hb
  rcases hb with rfl | rfl | rfl | rfl | rfl | rfl | rfl | rfl | rfl | rfl
  all_goals first
    | exact W4_of_ne m ρ c _ (by decide)
    | exact (W4_arr m ρ c 0).trans (((dat0 (V3 m ρ) c).arrAt_in 0 rfl _).trans (A_eq0 (V3 m ρ) c 0))
    | exact (W4_arr m ρ c 1).trans (((dat0 (V3 m ρ) c).arrAt_in 1 rfl _).trans (A_eq0 (V3 m ρ) c 1))

theorem agree_4_5 (c : Dev nD) : ∀ b ∈ carried, W5 m ρ c (Proc.devRef .tc b) = W4 m ρ c (Proc.devRef .tc b) := by
  intro b hb
  show StableHlo.after hostOps1 (W4 m ρ c) (Proc.devRef .tc b) = _
  simp only [carried, edgeRefs, argRefs, List.mem_cons, List.mem_singleton, List.not_mem_nil, or_false] at hb
  rcases hb with rfl | rfl | rfl | rfl | rfl | rfl | rfl | rfl | rfl | rfl <;> not_written hostOps1

/-- Region 1 reads only what the stretch before it wrote. -/
theorem agree_5_6 (c : Dev nD) : ∀ b ∈ carried, W6 m ρ c (Proc.devRef .tc b) = W5 m ρ c (Proc.devRef .tc b) := by
  intro b hb
  simp only [carried, edgeRefs, argRefs, List.mem_cons, List.mem_singleton, List.not_mem_nil, or_false] at hb
  rcases hb with rfl | rfl | rfl | rfl | rfl | rfl | rfl | rfl | rfl | rfl
  all_goals exact W6_of_ne m ρ c _ (by decide)

/-- Region 2 reads the second weight through an input window. -/
theorem agree_6_7 (c : Dev nD) : ∀ b ∈ carried, W7 m ρ c (Proc.devRef .tc b) = W6 m ρ c (Proc.devRef .tc b) := by
  intro b hb
  simp only [carried, edgeRefs, argRefs, List.mem_cons, List.mem_singleton, List.not_mem_nil, or_false] at hb
  rcases hb with rfl | rfl | rfl | rfl | rfl | rfl | rfl | rfl | rfl | rfl
  all_goals first
    | exact W7_of_ne m ρ c _ (by decide)
    | exact (W7_arr m ρ c 1).trans (((dat2 (V6 m ρ) c).arrAt_in 1 rfl _).trans (A_eq2 (V6 m ρ) c 1))

theorem agree_7_8 (c : Dev nD) : ∀ b ∈ carried, W8 m ρ c (Proc.devRef .tc b) = W7 m ρ c (Proc.devRef .tc b) := by
  intro b hb
  show StableHlo.after hostOps3 (W7 m ρ c) (Proc.devRef .tc b) = _
  simp only [carried, edgeRefs, argRefs, List.mem_cons, List.mem_singleton, List.not_mem_nil, or_false] at hb
  rcases hb with rfl | rfl | rfl | rfl | rfl | rfl | rfl | rfl | rfl | rfl <;> not_written hostOps3

theorem agree_8_9 (c : Dev nD) : ∀ b ∈ carried, W9 m ρ c (Proc.devRef .tc b) = W8 m ρ c (Proc.devRef .tc b) := by
  intro b hb
  simp only [carried, edgeRefs, argRefs, List.mem_cons, List.mem_singleton, List.not_mem_nil, or_false] at hb
  rcases hb with rfl | rfl | rfl | rfl | rfl | rfl | rfl | rfl | rfl | rfl
  all_goals exact W9_of_ne m ρ c _ (by decide)

/-- Region 4 reads the third weight through an input window. -/
theorem agree_9_10 (c : Dev nD) : ∀ b ∈ carried, W10 m ρ c (Proc.devRef .tc b) = W9 m ρ c (Proc.devRef .tc b) := by
  intro b hb
  simp only [carried, edgeRefs, argRefs, List.mem_cons, List.mem_singleton, List.not_mem_nil, or_false] at hb
  rcases hb with rfl | rfl | rfl | rfl | rfl | rfl | rfl | rfl | rfl | rfl
  all_goals first
    | exact W10_of_ne m ρ c _ (by decide)
    | exact (W10_arr m ρ c 1).trans (((dat4 (V9 m ρ) c).arrAt_in 1 rfl _).trans (A_eq4 (V9 m ρ) c 1))

/-! ## Region 0's entry as functions of the arguments, and every later boundary agreeing with it -/

theorem mem_edge_of_arg {b : Ref sig .tc} (hb : b ∈ argRefs) : b ∈ edgeRefs :=
  List.mem_cons_of_mem _ (List.mem_cons_of_mem _ hb)
theorem mem_carried_of_arg {b : Ref sig .tc} (hb : b ∈ argRefs) : b ∈ carried :=
  List.mem_cons_of_mem _ (mem_edge_of_arg hb)

theorem W3_arg (c : Dev nD) : ∀ b ∈ argRefs, W3 m ρ c (Proc.devRef .tc b) = W0 m ρ c (Proc.devRef .tc b) := fun b hb =>
  (agree_2_3 m ρ c b (mem_edge_of_arg hb)).trans ((agree_1_2 m ρ c b (mem_edge_of_arg hb)).trans (agree_0_1 m ρ c b hb))

theorem W2_src (c : Dev nD) : W2 m ρ c (Proc.devRef .tc main_v3) = Cert.RefOps.srcE (W0 m ρ c (Proc.devRef .tc main_arg7)) :=
  (agree_1_2 m ρ c main_v3 (by decide)).trans (W1_v3 m ρ c)
theorem W2_dst (c : Dev nD) : W2 m ρ c (Proc.devRef .tc main_v6) = Cert.RefOps.dstE (W0 m ρ c (Proc.devRef .tc main_arg7)) :=
  (agree_1_2 m ρ c main_v6 (by decide)).trans (W1_v6 m ρ c)

theorem W3_src (c : Dev nD) : W3 m ρ c (Proc.devRef .tc main_v3) = Cert.RefOps.srcE (W0 m ρ c (Proc.devRef .tc main_arg7)) :=
  (agree_2_3 m ρ c main_v3 (by decide)).trans (W2_src m ρ c)
theorem W3_dst (c : Dev nD) : W3 m ρ c (Proc.devRef .tc main_v6) = Cert.RefOps.dstE (W0 m ρ c (Proc.devRef .tc main_arg7)) :=
  (agree_2_3 m ρ c main_v6 (by decide)).trans (W2_dst m ρ c)
theorem W3_norm (c : Dev nD) : W3 m ρ c (Proc.devRef .tc main_v29) = Cert.RefOps.normE (W0 m ρ c (Proc.devRef .tc main_arg7)) := by
  rw [W3_v29_raw, W2_v14, W2_src, W2_dst]
  rfl

theorem agree_3_5 (c : Dev nD) : ∀ b ∈ carried, W5 m ρ c (Proc.devRef .tc b) = W3 m ρ c (Proc.devRef .tc b) := fun b hb =>
  (agree_4_5 m ρ c b hb).trans (agree_3_4 m ρ c b hb)
theorem agree_3_6 (c : Dev nD) : ∀ b ∈ carried, W6 m ρ c (Proc.devRef .tc b) = W3 m ρ c (Proc.devRef .tc b) := fun b hb =>
  (agree_5_6 m ρ c b hb).trans (agree_3_5 m ρ c b hb)
theorem agree_3_7 (c : Dev nD) : ∀ b ∈ carried, W7 m ρ c (Proc.devRef .tc b) = W3 m ρ c (Proc.devRef .tc b) := fun b hb =>
  (agree_6_7 m ρ c b hb).trans (agree_3_6 m ρ c b hb)
theorem agree_3_8 (c : Dev nD) : ∀ b ∈ carried, W8 m ρ c (Proc.devRef .tc b) = W3 m ρ c (Proc.devRef .tc b) := fun b hb =>
  (agree_7_8 m ρ c b hb).trans (agree_3_7 m ρ c b hb)
theorem agree_3_9 (c : Dev nD) : ∀ b ∈ carried, W9 m ρ c (Proc.devRef .tc b) = W3 m ρ c (Proc.devRef .tc b) := fun b hb =>
  (agree_8_9 m ρ c b hb).trans (agree_3_8 m ρ c b hb)
theorem agree_3_10 (c : Dev nD) : ∀ b ∈ carried, W10 m ρ c (Proc.devRef .tc b) = W3 m ρ c (Proc.devRef .tc b) := fun b hb =>
  (agree_9_10 m ρ c b hb).trans (agree_3_9 m ρ c b hb)

/-- A boundary that agrees with region 0's entry on what is carried holds the graph side and the arguments. -/
theorem src_of_agree (c : Dev nD) {W : Valuation τ sig (Elt F)} (h : ∀ b ∈ carried, W (Proc.devRef .tc b) = W3 m ρ c (Proc.devRef .tc b)) :
    W (Proc.devRef .tc main_v3) = Cert.RefOps.srcE (W0 m ρ c (Proc.devRef .tc main_arg7)) := (h main_v3 (by decide)).trans (W3_src m ρ c)
theorem dst_of_agree (c : Dev nD) {W : Valuation τ sig (Elt F)} (h : ∀ b ∈ carried, W (Proc.devRef .tc b) = W3 m ρ c (Proc.devRef .tc b)) :
    W (Proc.devRef .tc main_v6) = Cert.RefOps.dstE (W0 m ρ c (Proc.devRef .tc main_arg7)) := (h main_v6 (by decide)).trans (W3_dst m ρ c)
theorem norm_of_agree (c : Dev nD) {W : Valuation τ sig (Elt F)} (h : ∀ b ∈ carried, W (Proc.devRef .tc b) = W3 m ρ c (Proc.devRef .tc b)) :
    W (Proc.devRef .tc main_v29) = Cert.RefOps.normE (W0 m ρ c (Proc.devRef .tc main_arg7)) := (h main_v29 (by decide)).trans (W3_norm m ρ c)
theorem arg_of_agree (c : Dev nD) {W : Valuation τ sig (Elt F)} (h : ∀ b ∈ carried, W (Proc.devRef .tc b) = W3 m ρ c (Proc.devRef .tc b))
    (b : Ref sig .tc) (hb : b ∈ argRefs) : W (Proc.devRef .tc b) = W0 m ρ c (Proc.devRef .tc b) :=
  (h b (mem_carried_of_arg hb)).trans (W3_arg m ρ c b hb)

end AnyValues

/-! ## The layers, at the ideal values -/

section Layers

variable (m : (ℓ : Loc nD τ sig) → Buf (Elt Ideal) ℓ) (ρ : Dev nD → PrngReg)

open Cert.RefOps in
/-- Region 0 leaves the first product `x · W₁`. -/
theorem W4_mm (c : Dev nD) : W4 m ρ c (Proc.devRef .tc main_v30)
    = mm128 (F := Ideal) (W0 m ρ c (Proc.devRef .tc main_arg0)) (W0 m ρ c (Proc.devRef .tc main_arg1)) :=
  (W4_arr m ρ c 2).trans ((Cert.KernelIdeal.Reg0.final (V3 m ρ) c).trans
    (congrArg₂ (mm128 (F := Ideal)) (W3_arg m ρ c main_arg0 (by decide)) (W3_arg m ρ c main_arg1 (by decide))))

open Cert.RefOps in
/-- Region 1 is entered with the first product aggregated and the first bias row, and leaves the first layer. -/
theorem W6_layer1 (c : Dev nD) : W6 m ρ c (Proc.devRef .tc main_v45)
    = layer1 (F := Ideal) (W0 m ρ c (Proc.devRef .tc main_arg0)) (W0 m ρ c (Proc.devRef .tc main_arg1)) (W0 m ρ c (Proc.devRef .tc main_arg2)) (W0 m ρ c (Proc.devRef .tc main_arg7)) := by
  refine (W6_arr m ρ c 2).trans ((Cert.KernelIdeal.Reg1.final (V5 m ρ) c).trans ?_)
  show biasRelu128 (F := Ideal) (W5 m ρ c (Proc.devRef .tc main_v43)) (W5 m ρ c (Proc.devRef .tc main_v44)) = _
  rw [W5_v43_raw, W5_v44_raw, W4_mm,
    src_of_agree m ρ c (agree_3_4 m ρ c), norm_of_agree m ρ c (agree_3_4 m ρ c), dst_of_agree m ρ c (agree_3_4 m ρ c),
    arg_of_agree m ρ c (agree_3_4 m ρ c) main_arg2 (by decide)]
  rfl

open Cert.RefOps in
/-- Region 2 leaves the second product `h₁ · W₂`. -/
theorem W7_mm (c : Dev nD) : W7 m ρ c (Proc.devRef .tc main_v46)
    = mm128 (F := Ideal) (layer1 (F := Ideal) (W0 m ρ c (Proc.devRef .tc main_arg0)) (W0 m ρ c (Proc.devRef .tc main_arg1)) (W0 m ρ c (Proc.devRef .tc main_arg2)) (W0 m ρ c (Proc.devRef .tc main_arg7)))
        (W0 m ρ c (Proc.devRef .tc main_arg3)) :=
  (W7_arr m ρ c 2).trans ((Cert.KernelIdeal.Reg2.final (V6 m ρ) c).trans
    (congrArg₂ (mm128 (F := Ideal)) (W6_layer1 m ρ c) (arg_of_agree m ρ c (agree_3_6 m ρ c) main_arg3 (by decide))))

open Cert.RefOps in
/-- Region 3 leaves the second layer. -/
theorem W9_layer2 (c : Dev nD) : W9 m ρ c (Proc.devRef .tc main_v61)
    = layer2 (F := Ideal) (W0 m ρ c (Proc.devRef .tc main_arg0)) (W0 m ρ c (Proc.devRef .tc main_arg1)) (W0 m ρ c (Proc.devRef .tc main_arg2))
        (W0 m ρ c (Proc.devRef .tc main_arg3)) (W0 m ρ c (Proc.devRef .tc main_arg4)) (W0 m ρ c (Proc.devRef .tc main_arg7)) := by
  refine (W9_arr m ρ c 2).trans ((Cert.KernelIdeal.Reg3.final (V8 m ρ) c).trans ?_)
  show biasRelu128 (F := Ideal) (W8 m ρ c (Proc.devRef .tc main_v59)) (W8 m ρ c (Proc.devRef .tc main_v60)) = _
  rw [W8_v59_raw, W8_v60_raw, W7_mm,
    src_of_agree m ρ c (agree_3_7 m ρ c), norm_of_agree m ρ c (agree_3_7 m ρ c), dst_of_agree m ρ c (agree_3_7 m ρ c),
    arg_of_agree m ρ c (agree_3_7 m ρ c) main_arg4 (by decide)]
  rfl

open Cert.RefOps in
/-- Region 4 leaves the third product `h₂ · W₃`. -/
theorem W10_mm (c : Dev nD) : W10 m ρ c (Proc.devRef .tc main_v62)
    = mm64 (F := Ideal) (layer2 (F := Ideal) (W0 m ρ c (Proc.devRef .tc main_arg0)) (W0 m ρ c (Proc.devRef .tc main_arg1)) (W0 m ρ c (Proc.devRef .tc main_arg2))
        (W0 m ρ c (Proc.devRef .tc main_arg3)) (W0 m ρ c (Proc.devRef .tc main_arg4)) (W0 m ρ c (Proc.devRef .tc main_arg7))) (W0 m ρ c (Proc.devRef .tc main_arg5)) :=
  (W10_arr m ρ c 2).trans ((Cert.KernelIdeal.Reg4.final (V9 m ρ) c).trans
    (congrArg₂ (mm64 (F := Ideal)) (W9_layer2 m ρ c) (arg_of_agree m ρ c (agree_3_9 m ρ c) main_arg5 (by decide))))

open Cert.RefOps in
/-- Region 5's entry: the third product aggregated … -/
theorem W11_agg (c : Dev nD) : W11 m ρ c (Proc.devRef .tc main_v75)
    = agg64 (F := Ideal) (mm64 (F := Ideal) (layer2 (F := Ideal) (W0 m ρ c (Proc.devRef .tc main_arg0)) (W0 m ρ c (Proc.devRef .tc main_arg1)) (W0 m ρ c (Proc.devRef .tc main_arg2))
        (W0 m ρ c (Proc.devRef .tc main_arg3)) (W0 m ρ c (Proc.devRef .tc main_arg4)) (W0 m ρ c (Proc.devRef .tc main_arg7))) (W0 m ρ c (Proc.devRef .tc main_arg5)))
        (srcE (W0 m ρ c (Proc.devRef .tc main_arg7))) (normE (W0 m ρ c (Proc.devRef .tc main_arg7))) (dstE (W0 m ρ c (Proc.devRef .tc main_arg7))) := by
  rw [W11_v75_raw, W10_mm,
    src_of_agree m ρ c (agree_3_10 m ρ c), norm_of_agree m ρ c (agree_3_10 m ρ c), dst_of_agree m ρ c (agree_3_10 m ρ c)]

open Cert.RefOps in
/-- … and the third bias as one row. -/
theorem W11_bias (c : Dev nD) : W11 m ρ c (Proc.devRef .tc main_v76) = biasRow64 (F := Ideal) (W0 m ρ c (Proc.devRef .tc main_arg6)) := by
  rw [W11_v76_raw, arg_of_agree m ρ c (agree_3_10 m ρ c) main_arg6 (by decide)]

end Layers

end Cert.KernelIdeal.Fold

end
-- ==== Proof.RefLS.lean ====
/-
  The last layer's tail read at an index, at the ideal values. With v(k) = X(r,k) + B(0,k) the biased row of node r, and
  M = max(−∞, v(0), …, v(63)) the row's maximum taken from −∞, entry (r, q) of the bias followed by the row-wise
  log-softmax is (v(q) − M) − log Σₖ exp (v(k) − M): a function `lsRow v q` of the row's 64 biased entries alone. The
  reference's maximum is a reduction over axis 1 from −∞, joined once more with −∞, which changes nothing because the
  reduction already lies above the value it starts from; its sum is a reduction over axis 1 from the zero word, which is
  the extended real 0 and drops out of the sum; its logarithm and exponential are the ideal values' own; and each
  broadcast along a row reads the row's one entry.
-/
import proofs.«162593_j21165598834728_1_alg».proof.Proof.RefOps
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce

set_option maxRecDepth 16384

noncomputable section

namespace Cert.RefOps

open Cert.ReferenceIdeal Cert.ReferenceIdeal.Gen Idealize.ShloMosaic Idealize.ShloMosaic.ValueIdx

/-! ## The closed form: a row's log-softmax as a function of its 64 entries -/

/-- −∞, as the word both programs start their maxima from. -/
abbrev negInf : EReal := Ideal.ofBits .f32 0xFF800000#32

/-- A row's maximum over its 64 entries, taken from −∞. -/
def rowMax (v : Fin 64 → EReal) : EReal := (Finset.univ : Finset (Fin 64)).fold max negInf v

/-- The log-softmax of the row `v` at column `q`: the entry less the row's maximum, less the logarithm of the sum over
    the row of the exponentials of the entries less the maximum. -/
def lsRow (v : Fin 64 → EReal) (q : Fin 64) : EReal :=
  (v q - rowMax v) - Ideal.log (∑ k : Fin 64, Ideal.exp (v k - rowMax v))

/-- A maximum taken from −∞ lies above −∞, so joining it with −∞ once more changes nothing. -/
theorem max_negInf_rowMax (v : Fin 64 → EReal) : max negInf (rowMax v) = rowMax v :=
  max_eq_right ((Finset.le_fold_max _).2 (Or.inl le_rfl))

/-! ## Indices by coordinates -/

/-- The index (row of `i`, column `k`). -/
abbrev rowAt (i : S50000x64.Idx) (k : Fin 64) : S50000x64.Idx := fun a => match a with
  | ⟨0, _⟩ => ⟨(i 0).val, (i 0).isLt⟩
  | ⟨1, _⟩ => ⟨k.val, k.isLt⟩
/-- The bias row's entry at column `k`: (0, k). -/
abbrev biasAt (k : Fin 64) : S1x64.Idx := fun a => match a with
  | ⟨0, _⟩ => ⟨0, (by decide : (0 : ℕ) < 1)⟩
  | ⟨1, _⟩ => ⟨k.val, k.isLt⟩
/-- The column of `i`. -/
abbrev colOf (i : S50000x64.Idx) : Fin 64 := ⟨(i 1).val, (i 1).isLt⟩
/-- The row of `i`, as an index of the per-row results. -/
abbrev row1 (i : S50000x64.Idx) : S50000.Idx := fun a => match a with
  | ⟨0, _⟩ => ⟨(i 0).val, (i 0).isLt⟩
/-- The row of `i`, as an index of the per-row results laid out as one column. -/
abbrev rowU (i : S50000x64.Idx) : S50000x1.Idx := fun a => match a with
  | ⟨0, _⟩ => ⟨(i 0).val, (i 0).isLt⟩
  | ⟨1, _⟩ => ⟨0, (by decide : (0 : ℕ) < 1)⟩

/-- Every index is (its row, its column). -/
theorem eq_rowAt (i : S50000x64.Idx) : i = rowAt i (colOf i) :=
  funext fun a => Fin.ext (by
    match a with
    | ⟨0, _⟩ => rfl
    | ⟨1, _⟩ => rfl)

/-- The shape fact that names the index inserted on the reduced axis (axis 1, the 64 columns). -/
theorem red64 : S50000x64.Reduces [1] S50000 := by decide

/-- The row of `i` with column `k` inserted is the index (row of `i`, `k`). -/
theorem lift64 (i : S50000x64.Idx) (k : Fin 64) : red64.lift (row1 i) k = rowAt i k :=
  funext fun a => Fin.ext (by
    match a with
    | ⟨0, _⟩ => rfl
    | ⟨1, _⟩ => rfl)

/-- A one-column array broadcast along the rows reads, at `i`, its entry in the row of `i`. -/
theorem bc1 (i : S50000x64.Idx) (a : Fin S50000x1.rank) :
    (rowU i a).val = if S50000x1.size a = 1 then 0 else (i ((![0, 1] : Fin 2 → Fin S50000x64.rank) a)).val := by
  match a with
  | ⟨0, _⟩ => exact (if_neg (by decide : ¬ (50000 : ℕ) = 1)).symm
  | ⟨1, _⟩ => exact (if_pos rfl).symm

/-- The per-row results laid out as one column: the entry of the same row. -/
theorem bc0 (i : S50000x64.Idx) (a : Fin S50000.rank) :
    (row1 i a).val = if S50000.size a = 1 then 0 else (rowU i ((![0] : Fin 1 → Fin S50000x1.rank) a)).val := by
  match a with
  | ⟨0, _⟩ => exact (if_neg (by decide : ¬ (50000 : ℕ) = 1)).symm

/-- The one bias row broadcast down the rows reads, at `j`, the bias at the column of `j`. -/
theorem bcB (j : S50000x64.Idx) (a : Fin S1x64.rank) :
    (biasAt (colOf j) a).val = if S1x64.size a = 1 then 0 else (j ((![0, 1] : Fin 2 → Fin S50000x64.rank) a)).val := by
  match a with
  | ⟨0, _⟩ => exact (if_pos rfl).symm
  | ⟨1, _⟩ => exact (if_neg (by decide : ¬ (64 : ℕ) = 1)).symm

/-! ## The reference's layout and reduction steps, each over a variable operand -/

/-- A one-column array broadcast along the rows reads, at `i`, its entry in the row of `i`. -/
theorem bcCol_apply (y : FVec Ideal S50000x1 .f32) (i : S50000x64.Idx) :
    broadcastInDim S50000x64 ![0, 1] bcast_S50000x1_S50000x64_0_1 y i = y (rowU i) :=
  broadcastInDim_apply ![0, 1] bcast_S50000x1_S50000x64_0_1 y i (rowU i) (bc1 i)

/-- The per-row results laid out as one column read, in the row of `i`, that row's result. -/
theorem bcRow_apply (w : FVec Ideal S50000 .f32) (i : S50000x64.Idx) :
    broadcastInDim S50000x1 ![0] bcast_S50000_S50000x1_0 w (rowU i) = w (row1 i) :=
  broadcastInDim_apply ![0] bcast_S50000_S50000x1_0 w (rowU i) (row1 i) (bc0 i)

/-- A per-row result subtracted from every entry of its row. -/
theorem subRow_apply (Z : FVec Ideal S50000x64 .f32) (R : FVec Ideal S50000 .f32) (i : S50000x64.Idx) :
    subf (F := Ideal) Z (broadcastInDim S50000x64 ![0, 1] bcast_S50000x1_S50000x64_0_1
      (broadcastInDim S50000x1 ![0] bcast_S50000_S50000x1_0 R)) i = Z i - R (row1 i) := by
  refine (subf_apply _ _ i).trans ?_
  refine congrArg (Z i - ·) ?_
  refine (bcCol_apply _ i).trans ?_
  exact bcRow_apply _ i

/-- The logarithm of a per-row result, subtracted from every entry of its row. -/
theorem subLogRow_apply (Z : FVec Ideal S50000x64 .f32) (R : FVec Ideal S50000 .f32) (i : S50000x64.Idx) :
    subf (F := Ideal) Z (broadcastInDim S50000x64 ![0, 1] bcast_S50000x1_S50000x64_0_1
      (Host.log (broadcastInDim S50000x1 ![0] bcast_S50000_S50000x1_0 R))) i = Z i - Ideal.log (R (row1 i)) := by
  refine (subf_apply _ _ i).trans ?_
  refine congrArg (Z i - ·) ?_
  refine (bcCol_apply _ i).trans ?_
  show Ideal.log (broadcastInDim S50000x1 ![0] bcast_S50000_S50000x1_0 R (rowU i)) = _
  exact congrArg Ideal.log (bcRow_apply R i)

/-- The bias row added to every node's row: entry `j` is X(j) + B(0, column of j). -/
theorem biased_apply (X : FVec Ideal S50000x64 .f32) (B : FVec Ideal S1x64 .f32) (j : S50000x64.Idx) :
    addf (F := Ideal) X (broadcastInDim S50000x64 ![0, 1] bcast_S1x64_S50000x64_0_1 B) j = X j + B (biasAt (colOf j)) := by
  refine (addf_apply _ _ j).trans ?_
  refine congrArg (X j + ·) ?_
  exact broadcastInDim_apply ![0, 1] bcast_S1x64_S50000x64_0_1 B j (biasAt (colOf j)) (bcB j)

/-- The reduction with `max` over axis 1 from −∞, at the row of `i`: the maximum from −∞ of the row's 64 entries. -/
theorem hostMax_apply (Z : FVec Ideal S50000x64 .f32) (i : S50000x64.Idx) :
    Host.reduce (FloatOps.maximumf (F := Ideal) (φ := .f32)) Z (constant (F := Ideal) S_ .f32 0xFF800000#32)
        reducesTo_S50000x64_S50000_d1 h_S_ (row1 i)
      = rowMax (fun k => Z (rowAt i k)) := by
  refine (Host.reduce_eq_fold_single (FloatOps.maximumf (F := Ideal) (φ := .f32)) Z _ reducesTo_S50000x64_S50000_d1 red64 h_S_
    (row1 i)).trans ?_
  have e : (Z ∘ red64.lift (row1 i)) = fun k : Fin 64 => Z (rowAt i k) := funext fun k => congrArg Z (lift64 i k)
  exact congrArg (fun f => (Finset.univ : Finset (Fin 64)).fold max negInf f) e

/-- The reduction with `add` over axis 1 from the zero word, at the row of `i`: the sum of the row's 64 entries (the
    zero word is the extended real 0). -/
theorem hostSum_apply (E : FVec Ideal S50000x64 .f32) (i : S50000x64.Idx) :
    Host.reduceAdd (F := Ideal) E (constant (F := Ideal) S_ .f32 0x00000000#32) reducesTo_S50000x64_S50000_d1 h_S_ (row1 i)
      = ∑ k : Fin 64, E (rowAt i k) := by
  refine (hostReduceAdd_apply E _ reducesTo_S50000x64_S50000_d1 h_S_ (row1 i)).trans ?_
  refine (Ideal.hostReduceAdd_single reducesTo_S50000x64_S50000_d1 red64 E _ (row1 i)).trans ?_
  refine (congrArg (· + _) Ideal.ofBits_zero_f32).trans ?_
  refine (zero_add _).trans ?_
  exact Finset.sum_congr rfl fun k _ => congrArg E (lift64 i k)

/-! ## The reference's stages at an index -/

/-- The row's maximum as the reference takes it (the reduction joined once more with −∞), at the row of `i`. -/
theorem rowMax64_apply (Z : FVec Ideal S50000x64 .f32) (i : S50000x64.Idx) :
    rowMax64 (F := Ideal) Z (row1 i) = rowMax (fun k => Z (rowAt i k)) := by
  unfold rowMax64
  refine (maximumf_apply _ _ (row1 i)).trans ?_
  refine (congrArg (max _) (hostMax_apply Z i)).trans ?_
  exact max_negInf_rowMax _

/-- Every entry less its row's maximum. -/
theorem shifted64_apply (Z : FVec Ideal S50000x64 .f32) (i : S50000x64.Idx) :
    shifted64 (F := Ideal) Z i = Z i - rowMax (fun k => Z (rowAt i k)) := by
  unfold shifted64
  refine (subRow_apply Z _ i).trans ?_
  exact congrArg (Z i - ·) (rowMax64_apply Z i)

/-- The log-softmax at `i`: the shifted entry less the logarithm of the row's sum of exponentials of shifted
    entries. -/
theorem logSoftmax64_apply (Z : FVec Ideal S50000x64 .f32) (i : S50000x64.Idx) :
    logSoftmax64 (F := Ideal) Z i
      = shifted64 (F := Ideal) Z i - Ideal.log (∑ k : Fin 64, Ideal.exp (shifted64 (F := Ideal) Z (rowAt i k))) := by
  unfold logSoftmax64
  refine (subLogRow_apply _ _ i).trans ?_
  exact congrArg (fun s => shifted64 (F := Ideal) Z i - Ideal.log s) (hostSum_apply (Host.exp (shifted64 (F := Ideal) Z)) i)

/-- The log-softmax at `i` as the closed form of the entries of the row of `i`. -/
theorem logSoftmax64_row (Z : FVec Ideal S50000x64 .f32) (i : S50000x64.Idx) :
    logSoftmax64 (F := Ideal) Z i = lsRow (fun k => Z (rowAt i k)) (colOf i) := by
  have h1 : shifted64 (F := Ideal) Z i = Z (rowAt i (colOf i)) - rowMax (fun k => Z (rowAt i k)) :=
    (shifted64_apply Z i).trans (congrArg (fun j => Z j - rowMax (fun k => Z (rowAt i k))) (eq_rowAt i))
  have h2 : ∀ k : Fin 64, shifted64 (F := Ideal) Z (rowAt i k) = Z (rowAt i k) - rowMax (fun k => Z (rowAt i k)) :=
    fun k => shifted64_apply Z (rowAt i k)
  refine (logSoftmax64_apply Z i).trans ?_
  unfold lsRow
  refine congrArg₂ (fun a s => a - Ideal.log s) h1 ?_
  exact Finset.sum_congr rfl fun k _ => congrArg Ideal.exp (h2 k)

/-- Entry `i` = (r, q) of the bias followed by the log-softmax: the closed form of row r's biased entries
    v(k) = X(r,k) + B(0,k), at column q. -/
theorem biasLogSoftmax64_apply (X : (⟨S50000x64, .f32⟩ : BufTy).Contents (Elt Ideal)) (B : (⟨S1x64, .f32⟩ : BufTy).Contents (Elt Ideal))
    (i : S50000x64.Idx) :
    biasLogSoftmax64 (F := Ideal) X B i = lsRow (fun k => X (rowAt i k) + B (biasAt k)) (colOf i) := by
  unfold biasLogSoftmax64
  refine (logSoftmax64_row _ i).trans ?_
  exact congrArg (fun v => lsRow v (colOf i)) (funext fun k => biased_apply X B (rowAt i k))

end Cert.RefOps

end
-- ==== Proof.Reg5.lean ====
/-
  REGION 5, the last layer's tail: the bias row added to every node's row, then the row-wise log-softmax over the 64
  columns. The grid has ten points; point `t` stages rows 5000·t … 5000·t + 4999 of the operand (all 64 columns) and
  the whole one-row bias. With v(k) = x(p,k) + b(0,k) the biased row p of the tile and M = max(−∞, v(0), …, v(63)),
  the body stores at (p, q) the value (v(q) − M) − log Σₖ exp (v(k) − M): the lane maximum and the lane sum of row p
  range over that row's 64 entries only, each per-row result is cast to one column and broadcast back along its row,
  and the sum's accumulator is the neutral zero. That is the closed form `lsRow v q` the reference's bias and
  log-softmax have at an index. Row p of point t's tile is row 5000·t + p of the array and the bias tile is the whole
  bias, so what point t writes back is rows 5000·t … of the whole-array function of the arrays the region finds; the
  ten tiles cover all 50000 rows (row r lies in tile r / 5000).
-/
import proofs.«162593_j21165598834728_1_alg».proof.Proof.Gen.KernelIdeal.Frame
import proofs.«162593_j21165598834728_1_alg».proof.Proof.RefOps
import proofs.«162593_j21165598834728_1_alg».proof.Proof.RefLS
import Idealize.ShloMosaic.Lib.Pipeline.Value
import Idealize.ShloMosaic.Lib.ValueIdx
import Idealize.ShloMosaic.PureOps.Ideal.Laws

set_option maxRecDepth 16384

noncomputable section

namespace Cert.KernelIdeal.Reg5

open Cert.KernelIdeal Cert.KernelIdeal.Gen
open Idealize.ShloMosaic Idealize.ShloMosaic.TcCoe Idealize.SL.Sem Idealize.ShloMosaic.ValueIdx
open Idealize.ShloMosaic.Pipeline (Dat Cfg Window)

theorem hz : (![0, 0] : Fin 2 → Nat) = fun _ => 0 := funext fun a => by fin_cases a <;> rfl

/-! ## Indices of a tile by coordinates -/

/-- The tile index (row of `j`, column `k`). -/
abbrev tRow (j : S5000x64.Idx) (k : Fin 64) : S5000x64.Idx := fun a => match a with
  | ⟨0, _⟩ => ⟨(j 0).val, (j 0).isLt⟩
  | ⟨1, _⟩ => ⟨k.val, k.isLt⟩
/-- The staged bias row's entry at column `k`: (0, k). -/
abbrev tBias (k : Fin 64) : S1x64.Idx := fun a => match a with
  | ⟨0, _⟩ => ⟨0, (by decide : (0 : ℕ) < 1)⟩
  | ⟨1, _⟩ => ⟨k.val, k.isLt⟩
/-- The column of `j`. -/
abbrev tCol (j : S5000x64.Idx) : Fin 64 := ⟨(j 1).val, (j 1).isLt⟩
/-- The row of `j`, as an index of the per-row results. -/
abbrev tRow1 (j : S5000x64.Idx) : S5000.Idx := fun a => match a with
  | ⟨0, _⟩ => ⟨(j 0).val, (j 0).isLt⟩
/-- The row of `j`, as an index of the per-row results laid out as one column. -/
abbrev tRowU (j : S5000x64.Idx) : S5000x1.Idx := fun a => match a with
  | ⟨0, _⟩ => ⟨(j 0).val, (j 0).isLt⟩
  | ⟨1, _⟩ => ⟨0, (by decide : (0 : ℕ) < 1)⟩

/-- Every tile index is (its row, its column). -/
theorem eq_tRow (j : S5000x64.Idx) : j = tRow j (tCol j) :=
  funext fun a => Fin.ext (by
    match a with
    | ⟨0, _⟩ => rfl
    | ⟨1, _⟩ => rfl)

/-- The row of `j` with column `k` inserted on the reduced axis is the index (row of `j`, `k`). -/
theorem lift5 (h : S5000x64.Reduces [1] S5000) (j : S5000x64.Idx) (k : Fin 64) : h.lift (tRow1 j) k = tRow j k :=
  funext fun a => Fin.ext (by
    match a with
    | ⟨0, _⟩ => rfl
    | ⟨1, _⟩ => rfl)

/-! ## The body's layout and reduction steps, each over a variable operand -/

/-- A one-column vector broadcast along the rows reads, at `j`, its entry in the row of `j`. -/
theorem bcastCol_apply (y : FVec Ideal S5000x1 .f32) (hb : S5000x1.Broadcasts S5000x64) (j : S5000x64.Idx) :
    broadcastTo S5000x64 y hb j = y (tRowU j) :=
  broadcastTo_apply y hb j (tRowU j) fun a => by
    match a with
    | ⟨0, _⟩ => exact (if_neg (by decide : ¬ (5000 : ℕ) = 1)).symm
    | ⟨1, _⟩ => exact (if_pos rfl).symm

/-- The per-row results cast to one column read, in the row of `j`, that row's result: (p, 0) and p have the same
    row-major position. -/
theorem castCol_apply (w : FVec Ideal S5000 .f32) (hs : S5000.ShapeCasts S5000x1) (j : S5000x64.Idx) :
    shapeCast S5000x1 w hs (tRowU j) = w (tRow1 j) :=
  shapeCast_apply w hs (tRowU j) (tRow1 j) (by
    rw [Shape.rowMajor_val_one, Shape.rowMajor_val_two]
    show (j 0).val = (j 0).val * 1 + 0
    omega)

/-- The one staged bias row broadcast down the rows reads, at `j`, the bias at the column of `j`. -/
theorem bcastBias_apply (b : FVec Ideal S1x64 .f32) (hb : S1x64.Broadcasts S5000x64) (j : S5000x64.Idx) :
    broadcastTo S5000x64 b hb j = b (tBias (tCol j)) :=
  broadcastTo_apply b hb j (tBias (tCol j)) fun a => by
    match a with
    | ⟨0, _⟩ => exact (if_pos rfl).symm
    | ⟨1, _⟩ => exact (if_neg (by decide : ¬ (64 : ℕ) = 1)).symm

/-- The lane maximum over axis 1 from −∞, at the row of `j`: the maximum from −∞ of the row's 64 entries. -/
theorem laneMax_apply (v : FVec Ideal S5000x64 .f32) (h : S5000x64.Reduces [1] S5000) (hφ : FKind.Formats .f32)
    (hacc : (0xFF800000#32 : BitVec 32) = FKind.maximumf.neutral .f32 hφ) (j : S5000x64.Idx) :
    multiReduction (F := Ideal) .maximumf [1] S5000 v 0xFF800000#32 h hφ hacc (tRow1 j)
      = Cert.RefOps.rowMax (fun k => v (tRow j k)) := by
  refine (Ideal.multiReduction_maximumf_single v _ h hφ hacc (tRow1 j)).trans ?_
  have e : (v ∘ h.lift (tRow1 j)) = fun k : Fin 64 => v (tRow j k) := funext fun k => congrArg v (lift5 h j k)
  exact congrArg (fun f => (Finset.univ : Finset (Fin 64)).fold max Cert.RefOps.negInf f) e

/-- The lane sum over axis 1, at the row of `j`: the sum of the row's 64 entries. -/
theorem laneSum_apply (e : FVec Ideal S5000x64 .f32) (h : S5000x64.Reduces [1] S5000) (hφ : FKind.Formats .f32)
    (hacc : (0x00000000#32 : BitVec 32) = FKind.add.neutral .f32 hφ) (j : S5000x64.Idx) :
    multiReduction (F := Ideal) .add [1] S5000 e 0x00000000#32 h hφ hacc (tRow1 j) = ∑ k : Fin 64, e (tRow j k) := by
  refine (Ideal.multiReduction_add_single e _ h hφ hacc (tRow1 j)).trans ?_
  exact Finset.sum_congr rfl fun k _ => congrArg e (lift5 h j k)

/-- The staged bias row added to every staged row: entry `j` is x(j) + b(0, column of j); the two shape casts are
    to the operands' own shapes. -/
theorem biasT_apply (x : FVec Ideal S5000x64 .f32) (b : FVec Ideal S1x64 .f32) (h1 : S5000x64.ShapeCasts S5000x64)
    (h2 : S1x64.ShapeCasts S1x64) (h3 : S1x64.Broadcasts S5000x64) (j : S5000x64.Idx) :
    addf (F := Ideal) (shapeCast S5000x64 x h1) (broadcastTo S5000x64 (shapeCast S1x64 b h2) h3) j
      = x j + b (tBias (tCol j)) := by
  refine (addf_apply _ _ j).trans ?_
  refine congrArg₂ (· + ·) (congrFun (shapeCast_self x h1) j) ?_
  refine (bcastBias_apply _ h3 j).trans ?_
  exact congrFun (shapeCast_self b h2) _

/-- Every entry less its row's maximum. -/
theorem shiftT_apply (v : FVec Ideal S5000x64 .f32) (h : S5000x64.Reduces [1] S5000) (hφ : FKind.Formats .f32)
    (hacc : (0xFF800000#32 : BitVec 32) = FKind.maximumf.neutral .f32 hφ) (hs : S5000.ShapeCasts S5000x1)
    (hb : S5000x1.Broadcasts S5000x64) (j : S5000x64.Idx) :
    subf (F := Ideal) v (broadcastTo S5000x64 (shapeCast S5000x1
        (multiReduction (F := Ideal) .maximumf [1] S5000 v 0xFF800000#32 h hφ hacc) hs) hb) j
      = v j - Cert.RefOps.rowMax (fun k => v (tRow j k)) := by
  refine (subf_apply _ _ j).trans ?_
  refine congrArg (v j - ·) ?_
  refine (bcastCol_apply _ hb j).trans ?_
  refine (castCol_apply _ hs j).trans ?_
  exact laneMax_apply v h hφ hacc j

/-- Every entry less the logarithm of its row's sum of exponentials. -/
theorem lseT_apply (s : FVec Ideal S5000x64 .f32) (h : S5000x64.Reduces [1] S5000) (hφ : FKind.Formats .f32)
    (hacc : (0x00000000#32 : BitVec 32) = FKind.add.neutral .f32 hφ) (hs : S5000.ShapeCasts S5000x1)
    (hb : S5000x1.Broadcasts S5000x64) (j : S5000x64.Idx) :
    subf (F := Ideal) s (broadcastTo S5000x64 (log (shapeCast S5000x1
        (multiReduction (F := Ideal) .add [1] S5000 (exp s) 0x00000000#32 h hφ hacc) hs)) hb) j
      = s j - Ideal.log (∑ k : Fin 64, Ideal.exp (s (tRow j k))) := by
  refine (subf_apply _ _ j).trans ?_
  refine congrArg (s j - ·) ?_
  refine (bcastCol_apply _ hb j).trans ?_
  show Ideal.log (shapeCast S5000x1 (multiReduction (F := Ideal) .add [1] S5000 (exp s) 0x00000000#32 h hφ hacc) hs (tRowU j)) = _
  refine congrArg Ideal.log ?_
  refine (castCol_apply _ hs j).trans ?_
  exact laneSum_apply (exp s) h hφ hacc j

/-- The row-wise log-softmax of a staged tile `v`, as the body spells it, at `j`: the closed form of the entries of
    the row of `j`. -/
theorem tail_apply (v : FVec Ideal S5000x64 .f32) (h : S5000x64.Reduces [1] S5000) (hφ : FKind.Formats .f32)
    (hm : (0xFF800000#32 : BitVec 32) = FKind.maximumf.neutral .f32 hφ)
    (ha : (0x00000000#32 : BitVec 32) = FKind.add.neutral .f32 hφ) (hs : S5000.ShapeCasts S5000x1)
    (hb : S5000x1.Broadcasts S5000x64) (j : S5000x64.Idx) :
    subf (F := Ideal)
        (subf (F := Ideal) v (broadcastTo S5000x64 (shapeCast S5000x1
          (multiReduction (F := Ideal) .maximumf [1] S5000 v 0xFF800000#32 h hφ hm) hs) hb))
        (broadcastTo S5000x64 (log (shapeCast S5000x1
          (multiReduction (F := Ideal) .add [1] S5000
            (exp (subf (F := Ideal) v (broadcastTo S5000x64 (shapeCast S5000x1
              (multiReduction (F := Ideal) .maximumf [1] S5000 v 0xFF800000#32 h hφ hm) hs) hb)))
            0x00000000#32 h hφ ha) hs)) hb) j
      = Cert.RefOps.lsRow (fun k => v (tRow j k)) (tCol j) := by
  refine (lseT_apply _ h hφ ha hs hb j).trans ?_
  have h1 := shiftT_apply v h hφ hm hs hb
  unfold Cert.RefOps.lsRow
  refine congrArg₂ (fun a s => a - Ideal.log s)
    ((h1 j).trans (congrArg (fun j' => v j' - Cert.RefOps.rowMax (fun k => v (tRow j k))) (eq_tRow j))) ?_
  exact Finset.sum_congr rfl fun k _ => congrArg Ideal.exp (h1 (tRow j k))

/-- The body's stored value at entry `j` = (p, q) of the tile: the closed form of row p's biased entries
    v(k) = x(p,k) + b(0,k), at column q. -/
theorem tile_apply (x : Vec Ideal S5000x64 .f32) (b : Vec Ideal S1x64 .f32) (j : S5000x64.Idx) :
    k5_pay1 (F := Ideal) x b j = Cert.RefOps.lsRow (fun k => x (tRow j k) + b (tBias k)) (tCol j) := by
  unfold k5_pay1
  refine (tail_apply _ _ _ _ _ _ _ j).trans ?_
  exact congrArg (fun v => Cert.RefOps.lsRow v (tCol j)) (funext fun k => biasT_apply x b _ _ _ (tRow j k))

/-! ## What a grid point writes back, and the cover -/

variable (V : (c : Dev nD) → (b : Ref sig .tc) → Buf (Elt Ideal) ((c : Thread nD τ).loc b))

/-- The printed index maps over the grid: the rows' block index is the point, every other block index is 0. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Point `t` writes back rows 5000·t … of the bias and log-softmax of the arrays the region finds: row p of the
    tile is row 5000·t + p of the array, the bias tile is the whole bias, and the column is the array's column. -/
theorem flushed_eq (c : Dev nD) (t : Fin cfg5.N) :
    (dat5 (F := Ideal) V c).flushed 2 t
      = ((cfg5.win 2).blk t).view.read (Elt Ideal)
          (Cert.RefOps.biasLogSoftmax64 (F := Ideal) (V c main_v75) (V c main_v76)) := by
  show (cfg5.win 2).cut (grid5.coords t) ((dat5 (F := Ideal) V c).after 2 t) = _
  rw [after5_2]
  unfold out5_2
  rw [View.canon_unit_zero hz]
  simp only [View.ld_unit_zero (S := S5000x64) hz, View.ld_unit_zero (S := S1x64) hz]
  obtain ⟨e0, e1, e2, e3, e4, e5⟩ := idx_facts t
  funext y
  show k5_pay1 (F := Ideal) (iblk5 V c 0 t) (iblk5 V c 1 t) y
    = Cert.RefOps.biasLogSoftmax64 (F := Ideal) (V c main_v75) (V c main_v76) (((cfg5.win 2).blk t).view.emb y)
  refine (tile_apply (iblk5 V c 0 t) (iblk5 V c 1 t) y).trans ?_
  refine Eq.trans ?_
    (Cert.RefOps.biasLogSoftmax64_apply (V c main_v75) (V c main_v76) (((cfg5.win 2).blk t).view.emb y)).symm
  have hx : ∀ k : Fin 64, iblk5 V c 0 t (tRow y k)
      = V c main_v75 (Cert.RefOps.rowAt (((cfg5.win 2).blk t).view.emb y) k) := fun k => by
    show V c main_v75 (((cfg5.win 0).blk t).view.emb (tRow y k)) = _
    refine congrArg _ (funext fun a => Fin.ext ?_)
    match a with
    | ⟨0, _⟩ => show win5_0.index t (0 : Fin 2) * 5000 + 1 * (y 0).val = win5_2.index t (0 : Fin 2) * 5000 + 1 * (y 0).val; omega
    | ⟨1, _⟩ => show win5_0.index t (1 : Fin 2) * 64 + 1 * k.val = k.val; omega
  have hb : ∀ k : Fin 64, iblk5 V c 1 t (tBias k) = V c main_v76 (Cert.RefOps.biasAt k) := fun k => by
    show V c main_v76 (((cfg5.win 1).blk t).view.emb (tBias k)) = _
    refine congrArg _ (funext fun a => Fin.ext ?_)
    match a with
    | ⟨0, _⟩ => show win5_1.index t (0 : Fin 2) * 1 + 1 * 0 = 0; omega
    | ⟨1, _⟩ => show win5_1.index t (1 : Fin 2) * 64 + 1 * k.val = k.val; omega
  have hq : tCol y = Cert.RefOps.colOf (((cfg5.win 2).blk t).view.emb y) := Fin.ext (by
    show (y 1).val = win5_2.index t (1 : Fin 2) * 64 + 1 * (y 1).val; omega)
  exact congrArg₂ Cert.RefOps.lsRow (funext fun k => congrArg₂ (· + ·) (hx k) (hb k)) hq

/-- An index of the array is in point `t`'s tile iff each coordinate is in the tile's range on its axis. -/
theorem mem_blk (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v77).slice (win5_2.rect t)).set ↔ _
  rw [View.set_slice_whole, Rect.mem_set_unit]
  exact Iff.rfl

/-- REGION 5 leaves in its output array the bias and row-wise log-softmax of the arrays it finds in its two operands. -/
theorem final (c : Dev nD) :
    (dat5 (F := Ideal) V c).arrAt 2 cfg5.N = Cert.RefOps.biasLogSoftmax64 (F := Ideal) (V c main_v75) (V c main_v76) :=
  (dat5 (F := Ideal) V c).arrAt_eq_of_cover 2 _ (fun t _ => flushed_eq V c t) fun i => by
    have hi0 : (i 0).val < 50000 := (i 0).isLt
    have hi1 : (i 1).val < 64 := (i 1).isLt
    have hN : cfg5.N = 10 := N_5
    obtain ⟨t, ht⟩ : ∃ t : Fin cfg5.N, t.val = (i 0).val / 5000 := ⟨⟨(i 0).val / 5000, by omega⟩, rfl⟩
    obtain ⟨e0, e1, e2, e3, e4, e5⟩ := idx_facts t
    refine ⟨t, flush5_2 t, ?_⟩
    rw [mem_blk]
    intro a
    match a with
    | ⟨0, _⟩ => show win5_2.index t (0 : Fin 2) * 5000 ≤ (i 0).val ∧ (i 0).val < win5_2.index t (0 : Fin 2) * 5000 + 5000; omega
    | ⟨1, _⟩ => show win5_2.index t (1 : Fin 2) * 64 ≤ (i 1).val ∧ (i 1).val < win5_2.index t (1 : Fin 2) * 64 + 64; omega

end Cert.KernelIdeal.Reg5

end
-- ==== Proof.KOut.lean ====
/-
  The kernel program's result. Region 5 is entered with the third layer's aggregated product and its bias row as
  functions of the arguments; it leaves the bias added and the row-wise log-softmax taken, which is the network's
  function of the arguments. So the run of the idealized kernel program ends with its result array at that function and
  its arguments as launched.
-/
import proofs.«162593_j21165598834728_1_alg».proof.Proof.KFold
import proofs.«162593_j21165598834728_1_alg».proof.Proof.Reg5
import proofs.«162593_j21165598834728_1_alg».proof.Proof.RunNamed

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

open Cert.RefOps in
/-- Region 5 leaves the network's function of the arguments in the result array. -/
theorem W12_out (c : Dev nD) : W12 m ρ c (Proc.devRef .tc main_v77)
    = gcnOut (F := Ideal) (W0 m ρ c (Proc.devRef .tc main_arg0)) (W0 m ρ c (Proc.devRef .tc main_arg1)) (W0 m ρ c (Proc.devRef .tc main_arg2))
        (W0 m ρ c (Proc.devRef .tc main_arg3)) (W0 m ρ c (Proc.devRef .tc main_arg4)) (W0 m ρ c (Proc.devRef .tc main_arg5)) (W0 m ρ c (Proc.devRef .tc main_arg6))
        (W0 m ρ c (Proc.devRef .tc main_arg7)) := by
  refine (W12_arr m ρ c 2).trans ((Cert.KernelIdeal.Reg5.final (V11 m ρ) c).trans ?_)
  show biasLogSoftmax64 (F := Ideal) (W11 m ρ c (Proc.devRef .tc main_v75)) (W11 m ρ c (Proc.devRef .tc main_v76)) = _
  rw [W11_agg, W11_bias]
  rfl

open Cert.RefOps in
/-- Every weakly fair execution of the idealized kernel program terminates, nothing faulting, with its result at the
    network's function of the arguments and the arguments as launched. -/
theorem run : θ_run (defs (F := Ideal)) (onTc (τ := τ) (main (F := Ideal))) ⟨m, fun _ => 0, ρ⟩ (fun r => ∀ c : Dev nD,
      r.2.mem ((c.tc : Thread nD τ).loc main_v77)
          = gcnOut (F := Ideal) (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W12_out m ρ c), (h c).2⟩) (Cert.KernelIdeal.Named.run_named m ρ)

end Cert.KernelIdeal.Fold

end
-- ==== Proof.RefFold.lean ====
/-
  The reference program's run, read stretch by stretch. The reference is one straight line of 121 host operations;
  after it every buffer holds the fold of the operations' results over the launch contents. The line is cut where the
  kernel program is cut: the first eighteen operations (the edges' sources and targets with the self-loops, the degree
  and its tests), the three of the `where` that selects the normalisation, the nineteen that make the edges' weights,
  then one stretch per layer — the product, the gather / scale / scatter-add along the edges, the bias and the positive
  part —, the last with the log-softmax. Each stretch's result is read from the boundary before it as the layer's
  function of what that boundary holds; the edges' sources, targets and weights and the arguments are written by no
  later operation. Chained, the result buffer ends at the three-layer network's function of the arguments.
-/
import proofs.«162593_j21165598834728_1_alg».proof.Proof.RefRun
import proofs.«162593_j21165598834728_1_alg».proof.Proof.RefOps
import proofs.«162593_j21165598834728_1_alg».proof.Proof.RefGlue
import proofs.«162593_j21165598834728_1_alg».proof.Proof.RefNet
import Idealize.ShloMosaic.Lib.StableHlo.Run
import Idealize.ShloMosaic.Lib.Pipeline.Frame

set_option maxRecDepth 16384

noncomputable section

namespace Cert.ReferenceIdeal.Fold

open Cert.ReferenceIdeal Cert.ReferenceIdeal.Gen Cert.ReferenceIdeal.RunP
open Idealize.ShloMosaic Idealize.ShloMosaic.TcCoe Idealize.SL.Sem Idealize.ShloMosaic.StableHlo

variable {F : FTy → Type} [FloatOps F]

/-! ## The line of operations, cut into six stretches -/

/-- The edges' sources and targets with the self-loops, the degree, its test and its inverse square root. -/
abbrev s0 : List (HloOp τ sig (Elt F)) := (ops (F := F)).take 18
/-- The `where` that selects the normalisation. -/
abbrev s1 : List (HloOp τ sig (Elt F)) := ((ops (F := F)).drop 18).take 3
/-- The edges' weights. -/
abbrev s2 : List (HloOp τ sig (Elt F)) := ((ops (F := F)).drop 21).take 19
/-- The first layer. -/
abbrev s3 : List (HloOp τ sig (Elt F)) := ((ops (F := F)).drop 40).take 23
/-- The second layer. -/
abbrev s4 : List (HloOp τ sig (Elt F)) := ((ops (F := F)).drop 63).take 23
/-- The third layer, up to its bias. -/
abbrev s5 : List (HloOp τ sig (Elt F)) := ((ops (F := F)).drop 86).take 20
/-- The log-softmax's row maximum, taken from `−∞`. -/
abbrev s6 : List (HloOp τ sig (Elt F)) := ((ops (F := F)).drop 106).take 5
/-- Every entry less its row's maximum. -/
abbrev s7 : List (HloOp τ sig (Elt F)) := ((ops (F := F)).drop 111).take 3
/-- The logarithm of each row's sum of exponentials. -/
abbrev s8 : List (HloOp τ sig (Elt F)) := ((ops (F := F)).drop 114).take 5
/-- The shifted entry less that logarithm. -/
abbrev s9 : List (HloOp τ sig (Elt F)) := (ops (F := F)).drop 119

theorem ops_split : (ops (F := F)) = s0 ++ (s1 ++ (s2 ++ (s3 ++ (s4 ++ (s5 ++ (s6 ++ (s7 ++ (s8 ++ s9)))))))) := rfl

/-- A buffer none of a stretch's operations writes keeps its contents across the stretch. -/
local macro "not_written" : tactic => `(tactic|
  exact StableHlo.after_of_forall_not_mem _ _ (List.forall_iff_forall_mem.mp (by
    simp only [s0, s1, s2, s3, s4, s5, s6, s7, s8, s9, ops, List.take_succ_cons, List.take_zero, List.drop_succ_cons, List.drop_zero,
      List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (U : Valuation τ sig (Elt F))

/-- The buffer contents after each stretch, from the launch contents `U`. -/
abbrev U1 : Valuation τ sig (Elt F) := StableHlo.after s0 U
abbrev U2 : Valuation τ sig (Elt F) := StableHlo.after s1 (U1 U)
abbrev U3 : Valuation τ sig (Elt F) := StableHlo.after s2 (U2 U)
abbrev U4 : Valuation τ sig (Elt F) := StableHlo.after s3 (U3 U)
abbrev U5 : Valuation τ sig (Elt F) := StableHlo.after s4 (U4 U)
abbrev U6 : Valuation τ sig (Elt F) := StableHlo.after s5 (U5 U)
abbrev U7 : Valuation τ sig (Elt F) := StableHlo.after s6 (U6 U)
abbrev U8 : Valuation τ sig (Elt F) := StableHlo.after s7 (U7 U)
abbrev U9 : Valuation τ sig (Elt F) := StableHlo.after s8 (U8 U)
abbrev U10 : Valuation τ sig (Elt F) := StableHlo.after s9 (U9 U)

/-- The whole line's fold is the last boundary. -/
theorem after_ops : StableHlo.after (ops (F := F)) U = U10 U := by
  rw [ops_split]
  simp only [StableHlo.after_append]

/-! ## What each stretch writes, from the boundary before it -/

theorem U1_v3 : U1 U (Proc.devRef .tc main_v3) = Cert.RefOps.srcE (U (Proc.devRef .tc main_arg7)) := by
  show StableHlo.after s0 U (Proc.devRef .tc main_v3) = _
  simp only [s0, ops, List.take_succ_cons, List.take_zero]
  after_results
  rfl

theorem U1_v6 : U1 U (Proc.devRef .tc main_v6) = Cert.RefOps.dstE (U (Proc.devRef .tc main_arg7)) := by
  show StableHlo.after s0 U (Proc.devRef .tc main_v6) = _
  simp only [s0, ops, List.take_succ_cons, List.take_zero]
  after_results
  rfl

theorem U1_v12 : U1 U (Proc.devRef .tc main_v12)
    = cmpf .ogt (Cert.RefOps.degE (U (Proc.devRef .tc main_arg7)))
        (broadcastInDim S50000 ![] bcast_S_S50000 (constant S_ .f32 0x00000000#32)) := by
  show StableHlo.after s0 U (Proc.devRef .tc main_v12) = _
  simp only [s0, ops, List.take_succ_cons, List.take_zero]
  after_results
  rfl

theorem U1_v13 : U1 U (Proc.devRef .tc main_v13) = Host.rsqrt (Cert.RefOps.degE (U (Proc.devRef .tc main_arg7))) := by
  show StableHlo.after s0 U (Proc.devRef .tc main_v13) = _
  simp only [s0, ops, List.take_succ_cons, List.take_zero]
  after_results
  rfl

theorem U1_cst_2 : U1 U (Proc.devRef .tc main_cst_2) = constant S_ .f32 0x00000000#32 := by
  show StableHlo.after s0 U (Proc.devRef .tc main_cst_2) = _
  simp only [s0, ops, List.take_succ_cons, List.take_zero]
  after_results

theorem U2_v14 : U2 U (Proc.devRef .tc main_v14) = Cert.RefOps.disE (U (Proc.devRef .tc main_arg7)) := by
  show StableHlo.after s1 (U1 U) (Proc.devRef .tc main_v14) = _
  have h12 := U1_v12 U
  have h13 := U1_v13 U
  have hc := U1_cst_2 U
  generalize U1 U = V at h12 h13 hc ⊢
  simp only [s1, ops, List.take_succ_cons, List.take_zero, List.drop_succ_cons, List.drop_zero]
  after_results_simp
  rw [h12, h13, hc]
  rfl

theorem U3_v29_raw : U3 U (Proc.devRef .tc main_v29)
    = mulf (Host.gather gather_S50000_S850000x1_S850000_n_0_n_n_0_1_1 (U2 U (Proc.devRef .tc main_v14))
              (broadcastInDim S850000x1 ![0] bcast_S850000_S850000x1_0 (Cert.RefOps.wrapIdx (U2 U (Proc.devRef .tc main_v3)))))
           (Host.gather gather_S50000_S850000x1_S850000_n_0_n_n_0_1_1 (U2 U (Proc.devRef .tc main_v14))
              (broadcastInDim S850000x1 ![0] bcast_S850000_S850000x1_0 (Cert.RefOps.wrapIdx (U2 U (Proc.devRef .tc main_v6))))) := by
  show StableHlo.after s2 (U2 U) (Proc.devRef .tc main_v29) = _
  generalize U2 U = V
  simp only [s2, ops, List.take_succ_cons, List.take_zero, List.drop_succ_cons, List.drop_zero]
  after_results_simp
  rfl

/-- The first layer, from what the boundary before it holds. -/
theorem U4_v47_raw : U4 U (Proc.devRef .tc main_v47)
    = Cert.RefOps.biasRelu128
        (Cert.RefOps.agg128 (Cert.RefOps.mm128 (U3 U (Proc.devRef .tc main_arg0)) (U3 U (Proc.devRef .tc main_arg1)))
          (U3 U (Proc.devRef .tc main_v3)) (U3 U (Proc.devRef .tc main_v29)) (U3 U (Proc.devRef .tc main_v6)))
        (Cert.RefOps.biasRow128 (U3 U (Proc.devRef .tc main_arg2))) := by
  show StableHlo.after s3 (U3 U) (Proc.devRef .tc main_v47) = _
  generalize U3 U = V
  simp only [s3, ops, List.take_succ_cons, List.take_zero, List.drop_succ_cons, List.drop_zero]
  after_results_simp
  rfl

/-- The second layer. -/
theorem U5_v65_raw : U5 U (Proc.devRef .tc main_v65)
    = Cert.RefOps.biasRelu128
        (Cert.RefOps.agg128 (Cert.RefOps.mm128 (U4 U (Proc.devRef .tc main_v47)) (U4 U (Proc.devRef .tc main_arg3)))
          (U4 U (Proc.devRef .tc main_v3)) (U4 U (Proc.devRef .tc main_v29)) (U4 U (Proc.devRef .tc main_v6)))
        (Cert.RefOps.biasRow128 (U4 U (Proc.devRef .tc main_arg4))) := by
  show StableHlo.after s4 (U4 U) (Proc.devRef .tc main_v65) = _
  generalize U4 U = V
  simp only [s4, ops, List.take_succ_cons, List.take_zero, List.drop_succ_cons, List.drop_zero]
  after_results_simp
  rfl

/-- The third layer up to its bias: the aggregated product plus the bias row on every node's row. -/
theorem U6_v82_raw : U6 U (Proc.devRef .tc main_v82)
    = addf (Cert.RefOps.agg64 (Cert.RefOps.mm64 (U5 U (Proc.devRef .tc main_v65)) (U5 U (Proc.devRef .tc main_arg5)))
              (U5 U (Proc.devRef .tc main_v3)) (U5 U (Proc.devRef .tc main_v29)) (U5 U (Proc.devRef .tc main_v6)))
           (broadcastInDim S50000x64 ![0, 1] bcast_S1x64_S50000x64_0_1 (Cert.RefOps.biasRow64 (U5 U (Proc.devRef .tc main_arg6)))) := by
  show StableHlo.after s5 (U5 U) (Proc.devRef .tc main_v82) = _
  generalize U5 U = V
  simp only [s5, ops, List.take_succ_cons, List.take_zero, List.drop_succ_cons, List.drop_zero]
  after_results_simp
  rfl

/-! ### The log-softmax, four short stretches

The log-softmax is a function jax outlined: its operations read and write their buffers through typed references, which
carry a value to the buffer's own type and back. Each stretch is stated with those carriages written out; a value carried
there and back is the value, so along the chain they cancel in pairs, and the two left at the ends — reading the third
layer's array, writing the result — are identities. -/

/-- A value carried to a buffer's type and back is the value. -/
theorem ofBuf_toBuf {T : BufTy} (x : TRef sig T) (v : T.Contents (Elt F)) : x.ofBuf (x.toBuf v) = v := by
  obtain ⟨r, rfl, _, _⟩ := x
  rfl

/-- The third layer's array, the row maxima, the shifted entries, the logarithms and the result, as typed references. -/
abbrev r82 : TRef sig ⟨S50000x64, .f32⟩ := TRef.of main_v82
abbrev rMax : TRef sig ⟨S50000, .f32⟩ := TRef.of main_call3_v2
abbrev rSh : TRef sig ⟨S50000x64, .f32⟩ := TRef.of main_call3_v5
abbrev rLog : TRef sig ⟨S50000x1, .f32⟩ := TRef.of main_call3_v9
abbrev r83 : TRef sig ⟨S50000x64, .f32⟩ := TRef.of main_v83

theorem ofBuf_v82 (w : (⟨S50000x64, .f32⟩ : BufTy).Contents (Elt F)) : r82.ofBuf w = w := rfl
theorem toBuf_v83 (z : (⟨S50000x64, .f32⟩ : BufTy).Contents (Elt F)) : r83.toBuf z = z := rfl

/-- Each row's maximum of what the stretch before left, taken from `−∞`. -/
theorem U7_max : U7 U (Proc.devRef .tc main_call3_v2)
    = rMax.toBuf (Cert.RefOps.rowMax64 (r82.ofBuf (U6 U (Proc.devRef .tc main_v82)))) := by
  show StableHlo.after s6 (U6 U) (Proc.devRef .tc main_call3_v2) = _
  generalize U6 U = V
  simp only [s6, ops, List.take_succ_cons, List.take_zero, List.drop_succ_cons, List.drop_zero]
  after_results_simp
  simp only [ofBuf_toBuf]
  rfl

theorem U7_v82 : U7 U (Proc.devRef .tc main_v82) = U6 U (Proc.devRef .tc main_v82) := by
  show StableHlo.after s6 (U6 U) (Proc.devRef .tc main_v82) = _
  not_written

/-- Every entry less its row's maximum. -/
theorem U8_shifted : U8 U (Proc.devRef .tc main_call3_v5)
    = rSh.toBuf (subf (r82.ofBuf (U7 U (Proc.devRef .tc main_v82)))
        (broadcastInDim S50000x64 ![0, 1] bcast_S50000x1_S50000x64_0_1 (broadcastInDim S50000x1 ![0] bcast_S50000_S50000x1_0 (rMax.ofBuf (U7 U (Proc.devRef .tc main_call3_v2)))))) := by
  show StableHlo.after s7 (U7 U) (Proc.devRef .tc main_call3_v5) = _
  generalize U7 U = V
  simp only [s7, ops, List.take_succ_cons, List.take_zero, List.drop_succ_cons, List.drop_zero]
  after_results_simp
  simp only [ofBuf_toBuf]

/-- The logarithm of each row's sum of exponentials of the shifted entries. -/
theorem U9_log : U9 U (Proc.devRef .tc main_call3_v9)
    = rLog.toBuf (Host.log (broadcastInDim S50000x1 ![0] bcast_S50000_S50000x1_0
        (Host.reduceAdd (Host.exp (rSh.ofBuf (U8 U (Proc.devRef .tc main_call3_v5)))) (constant S_ .f32 0x00000000#32) reducesTo_S50000x64_S50000_d1 h_S_))) := by
  show StableHlo.after s8 (U8 U) (Proc.devRef .tc main_call3_v9) = _
  generalize U8 U = V
  simp only [s8, ops, List.take_succ_cons, List.take_zero, List.drop_succ_cons, List.drop_zero]
  after_results_simp
  simp only [ofBuf_toBuf]

theorem U9_shifted : U9 U (Proc.devRef .tc main_call3_v5) = U8 U (Proc.devRef .tc main_call3_v5) := by
  show StableHlo.after s8 (U8 U) (Proc.devRef .tc main_call3_v5) = _
  not_written

/-- The shifted entry less the logarithm of its row's sum. -/
theorem U10_out : U10 U (Proc.devRef .tc main_v83)
    = r83.toBuf (subf (rSh.ofBuf (U9 U (Proc.devRef .tc main_call3_v5))) (broadcastInDim S50000x64 ![0, 1] bcast_S50000x1_S50000x64_0_1 (rLog.ofBuf (U9 U (Proc.devRef .tc main_call3_v9))))) := by
  show StableHlo.after s9 (U9 U) (Proc.devRef .tc main_v83) = _
  generalize U9 U = V
  simp only [s9, ops, List.drop_succ_cons, List.drop_zero]
  after_results_simp
  simp only [ofBuf_toBuf]

/-- Together: the row-wise log-softmax of what the third layer's stretch left. -/
theorem U10_v83_raw : U10 U (Proc.devRef .tc main_v83) = Cert.RefOps.logSoftmax64 (U6 U (Proc.devRef .tc main_v82)) := by
  rw [U10_out, U9_log, U9_shifted, U8_shifted, U7_max, U7_v82]
  simp only [ofBuf_toBuf, ofBuf_v82]
  refine (toBuf_v83 _).trans ?_
  rfl

/-- The third layer and the log-softmax together. -/
theorem U10_v83 : U10 U (Proc.devRef .tc main_v83)
    = Cert.RefOps.biasLogSoftmax64
        (Cert.RefOps.agg64 (Cert.RefOps.mm64 (U5 U (Proc.devRef .tc main_v65)) (U5 U (Proc.devRef .tc main_arg5)))
          (U5 U (Proc.devRef .tc main_v3)) (U5 U (Proc.devRef .tc main_v29)) (U5 U (Proc.devRef .tc main_v6)))
        (Cert.RefOps.biasRow64 (U5 U (Proc.devRef .tc main_arg6))) := by
  rw [U10_v83_raw, U6_v82_raw]
  rfl

/-! ## What is carried -/

abbrev argRefs : List (Ref sig .tc) := [main_arg0, main_arg1, main_arg2, main_arg3, main_arg4, main_arg5, main_arg6]
abbrev edgeRefs : List (Ref sig .tc) := main_v3 :: main_v6 :: argRefs
abbrev carried : List (Ref sig .tc) := main_v29 :: edgeRefs

theorem agree_0_1 : ∀ b ∈ argRefs, U1 U (Proc.devRef .tc b) = U (Proc.devRef .tc b) := by
  intro b hb
  show StableHlo.after s0 U (Proc.devRef .tc b) = _
  simp only [argRefs, List.mem_cons, List.mem_singleton, List.not_mem_nil, or_false] at hb
  rcases hb with rfl | rfl | rfl | rfl | rfl | rfl | rfl <;> not_written

theorem agree_1_2 : ∀ b ∈ edgeRefs, U2 U (Proc.devRef .tc b) = U1 U (Proc.devRef .tc b) := by
  intro b hb
  show StableHlo.after s1 (U1 U) (Proc.devRef .tc b) = _
  simp only [edgeRefs, argRefs, List.mem_cons, List.mem_singleton, List.not_mem_nil, or_false] at hb
  rcases hb with rfl | rfl | rfl | rfl | rfl | rfl | rfl | rfl | rfl <;> not_written

theorem agree_2_3 : ∀ b ∈ edgeRefs, U3 U (Proc.devRef .tc b) = U2 U (Proc.devRef .tc b) := by
  intro b hb
  show StableHlo.after s2 (U2 U) (Proc.devRef .tc b) = _
  simp only [edgeRefs, argRefs, List.mem_cons, List.mem_singleton, List.not_mem_nil, or_false] at hb
  rcases hb with rfl | rfl | rfl | rfl | rfl | rfl | rfl | rfl | rfl <;> not_written

theorem agree_3_4 : ∀ b ∈ carried, U4 U (Proc.devRef .tc b) = U3 U (Proc.devRef .tc b) := by
  intro b hb
  show StableHlo.after s3 (U3 U) (Proc.devRef .tc b) = _
  simp only [carried, edgeRefs, argRefs, List.mem_cons, List.mem_singleton, List.not_mem_nil, or_false] at hb
  rcases hb with rfl | rfl | rfl | rfl | rfl | rfl | rfl | rfl | rfl | rfl <;> not_written

theorem agree_4_5 : ∀ b ∈ carried, U5 U (Proc.devRef .tc b) = U4 U (Proc.devRef .tc b) := by
  intro b hb
  show StableHlo.after s4 (U4 U) (Proc.devRef .tc b) = _
  simp only [carried, edgeRefs, argRefs, List.mem_cons, List.mem_singleton, List.not_mem_nil, or_false] at hb
  rcases hb with rfl | rfl | rfl | rfl | rfl | rfl | rfl | rfl | rfl | rfl <;> not_written

theorem mem_edge_of_arg {b : Ref sig .tc} (hb : b ∈ argRefs) : b ∈ edgeRefs :=
  List.mem_cons_of_mem _ (List.mem_cons_of_mem _ hb)
theorem mem_carried_of_arg {b : Ref sig .tc} (hb : b ∈ argRefs) : b ∈ carried :=
  List.mem_cons_of_mem _ (mem_edge_of_arg hb)

/-! ## The boundaries as functions of the arguments -/

theorem U3_arg : ∀ b ∈ argRefs, U3 U (Proc.devRef .tc b) = U (Proc.devRef .tc b) := fun b hb =>
  (agree_2_3 U b (mem_edge_of_arg hb)).trans ((agree_1_2 U b (mem_edge_of_arg hb)).trans (agree_0_1 U b hb))

theorem U2_src : U2 U (Proc.devRef .tc main_v3) = Cert.RefOps.srcE (U (Proc.devRef .tc main_arg7)) :=
  (agree_1_2 U main_v3 (by decide)).trans (U1_v3 U)
theorem U2_dst : U2 U (Proc.devRef .tc main_v6) = Cert.RefOps.dstE (U (Proc.devRef .tc main_arg7)) :=
  (agree_1_2 U main_v6 (by decide)).trans (U1_v6 U)
theorem U3_src : U3 U (Proc.devRef .tc main_v3) = Cert.RefOps.srcE (U (Proc.devRef .tc main_arg7)) :=
  (agree_2_3 U main_v3 (by decide)).trans (U2_src U)
theorem U3_dst : U3 U (Proc.devRef .tc main_v6) = Cert.RefOps.dstE (U (Proc.devRef .tc main_arg7)) :=
  (agree_2_3 U main_v6 (by decide)).trans (U2_dst U)
theorem U3_norm : U3 U (Proc.devRef .tc main_v29) = Cert.RefOps.normE (U (Proc.devRef .tc main_arg7)) := by
  rw [U3_v29_raw, U2_v14, U2_src, U2_dst]
  rfl

theorem agree_3_5 : ∀ b ∈ carried, U5 U (Proc.devRef .tc b) = U3 U (Proc.devRef .tc b) := fun b hb =>
  (agree_4_5 U b hb).trans (agree_3_4 U b hb)

theorem src_of_agree {W : Valuation τ sig (Elt F)} (h : ∀ b ∈ carried, W (Proc.devRef .tc b) = U3 U (Proc.devRef .tc b)) :
    W (Proc.devRef .tc main_v3) = Cert.RefOps.srcE (U (Proc.devRef .tc main_arg7)) := (h main_v3 (by decide)).trans (U3_src U)
theorem dst_of_agree {W : Valuation τ sig (Elt F)} (h : ∀ b ∈ carried, W (Proc.devRef .tc b) = U3 U (Proc.devRef .tc b)) :
    W (Proc.devRef .tc main_v6) = Cert.RefOps.dstE (U (Proc.devRef .tc main_arg7)) := (h main_v6 (by decide)).trans (U3_dst U)
theorem norm_of_agree {W : Valuation τ sig (Elt F)} (h : ∀ b ∈ carried, W (Proc.devRef .tc b) = U3 U (Proc.devRef .tc b)) :
    W (Proc.devRef .tc main_v29) = Cert.RefOps.normE (U (Proc.devRef .tc main_arg7)) := (h main_v29 (by decide)).trans (U3_norm U)
theorem arg_of_agree {W : Valuation τ sig (Elt F)} (h : ∀ b ∈ carried, W (Proc.devRef .tc b) = U3 U (Proc.devRef .tc b))
    (b : Ref sig .tc) (hb : b ∈ argRefs) : W (Proc.devRef .tc b) = U (Proc.devRef .tc b) :=
  (h b (mem_carried_of_arg hb)).trans (U3_arg U b hb)

open Cert.RefOps in
theorem U4_layer1 : U4 U (Proc.devRef .tc main_v47)
    = layer1 (U (Proc.devRef .tc main_arg0)) (U (Proc.devRef .tc main_arg1)) (U (Proc.devRef .tc main_arg2)) (U (Proc.devRef .tc main_arg7)) := by
  rw [U4_v47_raw, U3_arg U main_arg0 (by decide), U3_arg U main_arg1 (by decide), U3_arg U main_arg2 (by decide),
    U3_src, U3_norm, U3_dst]
  rfl

open Cert.RefOps in
theorem U5_layer2 : U5 U (Proc.devRef .tc main_v65)
    = layer2 (U (Proc.devRef .tc main_arg0)) (U (Proc.devRef .tc main_arg1)) (U (Proc.devRef .tc main_arg2)) (U (Proc.devRef .tc main_arg3)) (U (Proc.devRef .tc main_arg4)) (U (Proc.devRef .tc main_arg7)) := by
  rw [U5_v65_raw, U4_layer1, src_of_agree U (agree_3_4 U), norm_of_agree U (agree_3_4 U), dst_of_agree U (agree_3_4 U),
    arg_of_agree U (agree_3_4 U) main_arg3 (by decide), arg_of_agree U (agree_3_4 U) main_arg4 (by decide)]
  rfl

open Cert.RefOps in
/-- The result buffer after the whole line: the network's function of the launch contents of the arguments. -/
theorem out_eq : StableHlo.after (ops (F := F)) U (Proc.devRef .tc main_v83)
    = gcnOut (U (Proc.devRef .tc main_arg0)) (U (Proc.devRef .tc main_arg1)) (U (Proc.devRef .tc main_arg2)) (U (Proc.devRef .tc main_arg3)) (U (Proc.devRef .tc main_arg4))
        (U (Proc.devRef .tc main_arg5)) (U (Proc.devRef .tc main_arg6)) (U (Proc.devRef .tc main_arg7)) := by
  rw [after_ops, U10_v83, U5_layer2, src_of_agree U (agree_3_5 U), norm_of_agree U (agree_3_5 U), dst_of_agree U (agree_3_5 U),
    arg_of_agree U (agree_3_5 U) main_arg5 (by decide), arg_of_agree U (agree_3_5 U) main_arg6 (by decide)]
  rfl

/-- No operation of the line writes an argument. -/
theorem kept (b : Ref sig .tc) (hb : b ∈ [main_arg0, main_arg1, main_arg2, main_arg3, main_arg4, main_arg5, main_arg6, main_arg7]) :
    StableHlo.after (ops (F := F)) U (Proc.devRef .tc b) = U (Proc.devRef .tc b) := by
  simp only [List.mem_cons, List.mem_singleton, List.not_mem_nil, or_false] at hb
  rcases hb with rfl | rfl | rfl | rfl | rfl | rfl | rfl | rfl <;> not_written

/-! ## The run -/

open Cert.RefOps in
/-- Every weakly fair execution of the reference terminates, nothing faulting, with its result at the network's
    function of the arguments and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83)
          = gcnOut (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c main_v83).trans (out_eq (launchContents m c)),
       (h c main_arg0).trans (kept (launchContents m c) main_arg0 (by decide)),
       (h c main_arg1).trans (kept (launchContents m c) main_arg1 (by decide)),
       (h c main_arg2).trans (kept (launchContents m c) main_arg2 (by decide)),
       (h c main_arg3).trans (kept (launchContents m c) main_arg3 (by decide)),
       (h c main_arg4).trans (kept (launchContents m c) main_arg4 (by decide)),
       (h c main_arg5).trans (kept (launchContents m c) main_arg5 (by decide)),
       (h c main_arg6).trans (kept (launchContents m c) main_arg6 (by decide)),
       (h c main_arg7).trans (kept (launchContents m c) main_arg7 (by decide))⟩)
    (run_seq scopedRefs_eq scopedSems_eq defs main (fun _ => ops) main_eq (fun _ => ops_sub) m ρ)

end Cert.ReferenceIdeal.Fold

end
-- ==== Proof.lean ====
/-
  The certificate of a three-layer graph convolution: a Pallas program (tiled MXU products, tiled bias + positive part,
  tiled bias + row-wise log-softmax, with jnp's gather / scale / scatter-add along the edges between them) against its
  jnp reference, over the extended reals.

  Both programs compute  out = log_softmax (A (relu (A (relu (A (x W₁) + b₁)) W₂ + b₂)) W₃ + b₃)  with `A` the
  adjacency (with self-loops) normalised by `1/√deg` at both ends of an edge. They differ only in how the dense stages
  are carried out. The kernel's product is a `tpu.matmul` into a zero accumulator on tiles of 5000 rows after a change
  of float format; at the ideal values the format change is the identity and the product is the same sum Σₖ x(r,k)·W(k,q)
  as the host's `dot_general`, a tile's row p at grid point t being row 5000·t + p of the array. Its bias + positive
  part and bias + log-softmax act row by row, so a tile of rows is the whole-array function on those rows; the row
  maximum is taken from `−∞` on both sides (the reference joins it with `−∞` once more, which changes nothing), and exp,
  log and the sums are the same functions on the extended reals. The ten tiles of every region cover the array. What
  lies between the dense stages is the same host text in both programs. No step uses distributivity or cancellation, so
  the finiteness of the inputs is never opened.

  The three frames: the kernel's two are the generated frame certificates; the reference's is its run with the result
  dropped. `preserves` is `True` (the idealization rewrote nothing). For the algebraic claim both runs end with the
  result at ONE function of the arguments (`Cert.RefOps.gcnOut`), and the arguments agree.
-/
import proofs.«162593_j21165598834728_1_alg».proof.Defs
import proofs.«162593_j21165598834728_1_alg».proof.Proof.Gen.Kernel
import proofs.«162593_j21165598834728_1_alg».proof.Proof.Gen.Kernel.Skeleton
import proofs.«162593_j21165598834728_1_alg».proof.Proof.Gen.Kernel.Launch
import proofs.«162593_j21165598834728_1_alg».proof.Proof.Gen.Kernel.Points
import proofs.«162593_j21165598834728_1_alg».proof.Proof.Gen.Kernel.Frame
import proofs.«162593_j21165598834728_1_alg».proof.Proof.Gen.KernelIdeal
import proofs.«162593_j21165598834728_1_alg».proof.Proof.Gen.KernelIdeal.Skeleton
import proofs.«162593_j21165598834728_1_alg».proof.Proof.Gen.KernelIdeal.Launch
import proofs.«162593_j21165598834728_1_alg».proof.Proof.Gen.KernelIdeal.Points
import proofs.«162593_j21165598834728_1_alg».proof.Proof.Gen.KernelIdeal.Frame
import proofs.«162593_j21165598834728_1_alg».proof.Proof.Gen.ReferenceIdeal
import proofs.«162593_j21165598834728_1_alg».proof.Proof.Gen.Pre_finite_inputs
import proofs.«162593_j21165598834728_1_alg».proof.Proof.KOut
import proofs.«162593_j21165598834728_1_alg».proof.Proof.RefFold
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Fold.run (F := Ideal) m ρ)

/-- The idealization rewrote no operation. -/
theorem preserves : Cert.preserves_Kernel_KernelIdeal := trivial

/-- Both runs end with the result at the network's function of the arguments, and the arguments agree. -/
theorem algebraic : Cert.algebraic_KernelIdeal_ReferenceIdeal := by
  intro m ρ m' ρ' _ hagree
  refine ⟨fun c => Cert.RefOps.gcnOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Fold.run m ρ, ?_⟩
  refine (θ_run Cert.ReferenceIdeal.defs _ _).mono (fun _ h c => ⟨(h c).1.trans ?_, (h c).2⟩)
    (Cert.ReferenceIdeal.Fold.run (F := Ideal) m' ρ')
  obtain ⟨a0, a1, a2, a3, a4, a5, a6, a7⟩ := hagree c
  rw [a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
